-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x16 : Shape := ⟨3, ![32, 2048, 16]⟩
abbrev S1x64x32x16 : Shape := ⟨4, ![1, 64, 32, 16]⟩
abbrev S_ : Shape := ⟨0, ![]⟩

class Facts : Prop where
  bcast_S_S32x2048x16 : S_.BroadcastsInDim S32x2048x16 (![] : Fin 0 → Fin S32x2048x16.rank)
  reducesTo_S32x2048x16_S_d0_1_2 : S32x2048x16.ReducesTo [0, 1, 2] S_
  h_S_ : 0 < S_.numel
  bcast_S_S1x64x32x16 : S_.BroadcastsInDim S1x64x32x16 (![] : Fin 0 → Fin S1x64x32x16.rank)
  reducesTo_S1x64x32x16_S_d0_1_2_3 : S1x64x32x16.ReducesTo [0, 1, 2, 3] S_

variable [Facts]

def fn {F : FTy → Type} [FloatOps F] (main_arg0 : FVec F S32x2048x16 .f32) (main_arg1 : FVec F S1x64x32x16 .f32) : IVec S_ 1 :=
  let main_v0 : FVec F S32x2048x16 .f32 := Host.absf main_arg0
  let main_cst : FVec F S_ .f32 := constant S_ .f32 0x7F800000#32
  let main_v1 : FVec F S32x2048x16 .f32 := broadcastInDim S32x2048x16 ![] bcast_S_S32x2048x16 main_cst
  let main_v2 : IVec S32x2048x16 1 := cmpf .olt main_v0 main_v1
  let main_c : IVec S_ 1 := constantI S_ 1 1#1
  let main_v3 : IVec S_ 1 := (fun x v => Host.reduce IntOp.andi x v reducesTo_S32x2048x16_S_d0_1_2 h_S_) main_v2 main_c
  let main_v4 : FVec F S1x64x32x16 .f32 := Host.absf main_arg1
  let main_cst_0 : FVec F S_ .f32 := constant S_ .f32 0x7F800000#32
  let main_v5 : FVec F S1x64x32x16 .f32 := broadcastInDim S1x64x32x16 ![] bcast_S_S1x64x32x16 main_cst_0
  let main_v6 : IVec S1x64x32x16 1 := cmpf .olt main_v4 main_v5
  let main_c_1 : IVec S_ 1 := constantI S_ 1 1#1
  let main_v7 : IVec S_ 1 := (fun x v => Host.reduce IntOp.andi x v reducesTo_S1x64x32x16_S_d0_1_2_3 h_S_) main_v6 main_c_1
  let main_v8 : IVec S_ 1 := andi main_v3 main_v7
  main_v8
-- ==== Kernel.lean ====
abbrev S32x2048x16 : Shape := ⟨3, ![32, 2048, 16]⟩
abbrev S1x64x32x16 : Shape := ⟨4, ![1, 64, 32, 16]⟩
abbrev S64x32x16 : Shape := ⟨3, ![64, 32, 16]⟩
abbrev S64x16x32 : Shape := ⟨3, ![64, 16, 32]⟩
abbrev S32x64x32 : Shape := ⟨3, ![32, 64, 32]⟩
abbrev S1x2048x16 : Shape := ⟨3, ![1, 2048, 16]⟩
abbrev S1x64x32 : Shape := ⟨3, ![1, 64, 32]⟩
abbrev S2048x16 : Shape := ⟨2, ![2048, 16]⟩
abbrev S2048 : Shape := ⟨1, ![2048]⟩
abbrev S2048x1 : Shape := ⟨2, ![2048, 1]⟩
abbrev S2048x64 : Shape := ⟨2, ![2048, 64]⟩
abbrev S64x2048 : Shape := ⟨2, ![64, 2048]⟩
abbrev S64x16 : Shape := ⟨2, ![64, 16]⟩
abbrev S64x1x16 : Shape := ⟨3, ![64, 1, 16]⟩
abbrev S64x32 : Shape := ⟨2, ![64, 32]⟩
abbrev S64 : Shape := ⟨1, ![64]⟩
abbrev S64x1 : Shape := ⟨2, ![64, 1]⟩
abbrev S64x1x32 : Shape := ⟨3, ![64, 1, 32]⟩
abbrev S16x64 : Shape := ⟨2, ![16, 64]⟩

abbrev nBuf : Space → Nat
  | .hbm => 5
  | .vmem => 6
  | .smem => 0
  | _ => 0

abbrev bufTy : (tb : Table) → Fin (tcTables nBuf tb) → BufTy
  | .hbm, ⟨0, _⟩ => ⟨S32x2048x16, .f32⟩
  | .hbm, ⟨1, _⟩ => ⟨S1x64x32x16, .f32⟩
  | .hbm, ⟨2, _⟩ => ⟨S64x32x16, .f32⟩
  | .hbm, ⟨3, _⟩ => ⟨S64x16x32, .f32⟩
  | .hbm, ⟨4, _⟩ => ⟨S32x64x32, .f32⟩
  | .local _ .vmem, ⟨0, _⟩ => ⟨S1x2048x16, .f32⟩
  | .local _ .vmem, ⟨1, _⟩ => ⟨S1x2048x16, .f32⟩
  | .local _ .vmem, ⟨2, _⟩ => ⟨S64x32x16, .f32⟩
  | .local _ .vmem, ⟨3, _⟩ => ⟨S64x16x32, .f32⟩
  | .local _ .vmem, ⟨4, _⟩ => ⟨S1x64x32, .f32⟩
  | .local _ .vmem, ⟨5, _⟩ => ⟨S1x64x32, .f32⟩
  | _, _ => ⟨S32x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x64x32x16_S64x32x16 : S1x64x32x16.ShapeCasts S64x32x16
  transposes_S64x32x16_S64x16x32_0_2_1 : S64x32x16.Transposes [0, 2, 1] S64x16x32
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  reduces_S2048x16_S2048 : S2048x16.Reduces [1] S2048
  shapeCasts_S2048_S2048x1 : S2048.ShapeCasts S2048x1
  broadcasts_S2048x1_S2048x16 : S2048x1.Broadcasts S2048x16
  bitsLt_bf16_f32 : FTy.bits .bf16 < FTy.bits .f32
  inb_S64x32x16_S64x32x16_0_0_0 : ∀ a, (![0, 0, 0] : Fin 3 → Nat) a + S64x32x16.size a ≤ S64x32x16.size a
  h_S64x32x16 : 0 < S64x32x16.numel
  shapeCasts_S64x32x16_S64x32x16 : S64x32x16.ShapeCasts S64x32x16
  inb_S64x16x32_S64x16x32_0_0_0 : ∀ a, (![0, 0, 0] : Fin 3 → Nat) a + S64x16x32.size a ≤ S64x16x32.size a
  h_S64x16x32 : 0 < S64x16x32.numel
  shapeCasts_S64x16x32_S64x16x32 : S64x16x32.ShapeCasts S64x16x32
  reduces_S2048x64_S2048 : S2048x64.Reduces [1] S2048
  broadcasts_S2048x1_S2048x64 : S2048x1.Broadcasts S2048x64
  transposes_S2048x64_p1_0_S64x2048 : S2048x64.Transposes [1, 0] S64x2048
  shapeCasts_S64x16_S64x1x16 : S64x16.ShapeCasts S64x1x16
  broadcasts_S64x1x16_S64x32x16 : S64x1x16.Broadcasts S64x32x16
  reduces_S64x32x16_S64x32 : S64x32x16.Reduces [2] S64x32
  reduces_S64x32_S64 : S64x32.Reduces [1] S64
  shapeCasts_S64_S64x1 : S64.ShapeCasts S64x1
  broadcasts_S64x1_S64x32 : S64x1.Broadcasts S64x32
  shapeCasts_S64x32_S64x1x32 : S64x32.ShapeCasts S64x1x32
  broadcasts_S64x1x32_S64x16x32 : S64x1x32.Broadcasts S64x16x32
  reduces_S64x16x32_S64x16 : S64x16x32.Reduces [2] S64x16
  transposes_S64x16_p1_0_S16x64 : S64x16.Transposes [1, 0] S16x64
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  shapeCasts_S64x32_S1x64x32 : S64x32.ShapeCasts S1x64x32
  dot_S64x2048_S2048x16_S64x16_1_0_0_1_n_n_wf : DotDims.WF S64x2048 S2048x16 S64x16 [1] [0] [0] [1] [] []
  dot_S2048x16_S16x64_S2048x64_1_0_0_1_n_n_wf : DotDims.WF S2048x16 S16x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x16.size a ≤ S32x2048x16.size a
  hwx0_0 : ∀ i : grid0.Coords, EltTy.bits .f32 = 32 ∨ (Rect.block (s := S32x2048x16) S1x2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32x16.size a ≤ S64x32x16.size a
  hwx0_1 : ∀ i : grid0.Coords, EltTy.bits .f32 = 32 ∨ (Rect.block (s := S64x32x16) S64x32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16x32.size a ≤ S64x16x32.size a
  hwx0_2 : ∀ i : grid0.Coords, EltTy.bits .f32 = 32 ∨ (Rect.block (s := S64x16x32) S64x16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x32.size a ≤ S32x64x32.size a
  hwx0_3 : ∀ i : grid0.Coords, EltTy.bits .f32 = 32 ∨ (Rect.block (s := S32x64x32) S1x64x32.size (cc0_transform_3 i) (hinb0_3 i)).WholeWords (EltTy.packing .f32)

variable [Facts₀]

def dot_S64x2048_S2048x16_S64x16_1_0_0_1_n_n : DotDims S64x2048 S2048x16 S64x16 where
  lhsContracting := [1]
  rhsContracting := [0]
  lhsNonContracting := [0]
  rhsNonContracting := [1]
  lhsBatch := []
  rhsBatch := []
  wf := dot_S64x2048_S2048x16_S64x16_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf

abbrev win0_0 : Pipeline.Window sig grid0 :=
  Pipeline.Window.ofSpec (Memref.whole main_arg0) S1x2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x16 : Shape := ⟨3, ![32, 2048, 16]⟩
abbrev S1x64x32x16 : Shape := ⟨4, ![1, 64, 32, 16]⟩
abbrev S_ : Shape := ⟨0, ![]⟩
abbrev S32x2048 : Shape := ⟨2, ![32, 2048]⟩
abbrev S32x2048x1 : Shape := ⟨3, ![32, 2048, 1]⟩
abbrev S64x32x16 : Shape := ⟨3, ![64, 32, 16]⟩
abbrev S32x2048x64x32 : Shape := ⟨4, ![32, 2048, 64, 32]⟩
abbrev S32x2048x64 : Shape := ⟨3, ![32, 2048, 64]⟩
abbrev S32x2048x64x1 : Shape := ⟨4, ![32, 2048, 64, 1]⟩
abbrev S32x64x32 : Shape := ⟨3, ![32, 64, 32]⟩
abbrev S32x1x64x32 : Shape := ⟨4, ![32, 1, 64, 32]⟩
abbrev S32x1x64 : Shape := ⟨3, ![32, 1, 64]⟩
abbrev S32x1x64x1 : Shape := ⟨4, ![32, 1, 64, 1]⟩

abbrev nBuf : Space → Nat
  | .hbm => 145
  | .vmem => 0
  | .smem => 0
  | _ => 0

abbrev hbmTy0_0 (i : Nat) : BufTy := match i % 128 with
  | 0 => ⟨S32x2048x16, .f32⟩
  | 1 => ⟨S1x64x32x16, .f32⟩
  | 2 => ⟨S32x2048x16, .f32⟩
  | 3 => ⟨S_, .f32⟩
  | 4 => ⟨S32x2048, .f32⟩
  | 5 => ⟨S32x2048x1, .f32⟩
  | 6 => ⟨S32x2048x1, .f32⟩
  | 7 => ⟨S32x2048x1, .f32⟩
  | 8 => ⟨S32x2048x16, .f32⟩
  | 9 => ⟨S32x2048x16, .f32⟩
  | 10 => ⟨S_, .f32⟩
  | 11 => ⟨S32x2048x1, .f32⟩
  | 12 => ⟨S32x2048x1, .f32⟩
  | 13 => ⟨S_, .f32⟩
  | 14 => ⟨S32x2048x1, .f32⟩
  | 15 => ⟨S32x2048x1, .f32⟩
  | 16 => ⟨S32x2048x1, .f32⟩
  | 17 => ⟨S32x2048x16, .f32⟩
  | 18 => ⟨S32x2048x16, .f32⟩
  | 19 => ⟨S64x32x16, .f32⟩
  | 20 => ⟨S32x2048x64x32, .f32⟩
  | 21 => ⟨S_, .f32⟩
  | 22 => ⟨S32x2048x64, .f32⟩
  | 23 => ⟨S_, .f32⟩
  | 24 => ⟨S32x2048, .f32⟩
  | 25 => ⟨S_, .f32⟩
  | 26 => ⟨S32x2048, .f32⟩
  | 27 => ⟨S32x2048, .f32⟩
  | 28 => ⟨S32x2048x1, .f32⟩
  | 29 => ⟨S32x2048x64, .f32⟩
  | 30 => ⟨S32x2048x64, .f32⟩
  | 31 => ⟨S32x2048x64, .f32⟩
  | 32 => ⟨S_, .f32⟩
  | 33 => ⟨S32x2048, .f32⟩
  | 34 => ⟨S32x2048x1, .f32⟩
  | 35 => ⟨S32x2048x64, .f32⟩
  | 36 => ⟨S32x2048x64, .f32⟩
  | 37 => ⟨S32x2048x64x1, .f32⟩
  | 38 => ⟨S32x2048x64x32, .f32⟩
  | 39 => ⟨S32x2048x64x32, .f32⟩
  | 40 => ⟨S_, .f32⟩
  | 41 => ⟨S32x64x32, .f32⟩
  | 42 => ⟨S32x1x64x32, .f32⟩
  | 43 => ⟨S32x1x64x32, .f32⟩
  | 44 => ⟨S_, .f32⟩
  | 45 => ⟨S32x1x64, .f32⟩
  | 46 => ⟨S32x1x64x1, .f32⟩
  | 47 => ⟨S32x1x64x1, .f32⟩
  | 48 => ⟨S32x1x64x1, .f32⟩
  | 49 => ⟨S32x1x64x32, .f32⟩
  | 50 => ⟨S32x1x64x32, .f32⟩
  | 51 => ⟨S_, .f32⟩
  | 52 => ⟨S32x1x64x1, .f32⟩
  | 53 => ⟨S32x1x64x1, .f32⟩
  | 54 => ⟨S_, .f32⟩
  | 55 => ⟨S32x1x64x1, .f32⟩
  | 56 => ⟨S32x1x64x1, .f32⟩
  | 57 => ⟨S32x1x64x1, .f32⟩
  | 58 => ⟨S32x1x64x32, .f32⟩
  | 59 => ⟨S32x1x64x32, .f32⟩
  | 60 => ⟨S32x2048x64x32, .f32⟩
  | 61 => ⟨S32x2048x64x32, .f32⟩
  | 62 => ⟨S_, .f32⟩
  | 63 => ⟨S32x2048x64, .f32⟩
  | 64 => ⟨S32x2048x64, .f32⟩
  | 65 => ⟨S_, .f32⟩
  | 66 => ⟨S32x2048, .f32⟩
  | 67 => ⟨S_, .f32⟩
  | 68 => ⟨S32x2048, .f32⟩
  | 69 => ⟨S32x2048, .f32⟩
  | 70 => ⟨S32x2048x1, .f32⟩
  | 71 => ⟨S32x2048x64, .f32⟩
  | 72 => ⟨S32x2048x64, .f32⟩
  | 73 => ⟨S32x2048x64, .f32⟩
  | 74 => ⟨S_, .f32⟩
  | 75 => ⟨S32x2048, .f32⟩
  | 76 => ⟨S32x2048x1, .f32⟩
  | 77 => ⟨S32x2048x64, .f32⟩
  | 78 => ⟨S32x2048x64, .f32⟩
  | 79 => ⟨S32x2048x64x1, .f32⟩
  | 80 => ⟨S32x2048x64x32, .f32⟩
  | 81 => ⟨S32x2048x64x32, .f32⟩
  | 82 => ⟨S_, .f32⟩
  | 83 => ⟨S32x64x32, .f32⟩
  | 84 => ⟨S32x1x64x32, .f32⟩
  | 85 => ⟨S32x1x64x32, .f32⟩
  | 86 => ⟨S_, .f32⟩
  | 87 => ⟨S32x1x64, .f32⟩
  | 88 => ⟨S32x1x64x1, .f32⟩
  | 89 => ⟨S32x1x64x1, .f32⟩
  | 90 => ⟨S32x1x64x1, .f32⟩
  | 91 => ⟨S32x1x64x32, .f32⟩
  | 92 => ⟨S32x1x64x32, .f32⟩
  | 93 => ⟨S_, .f32⟩
  | 94 => ⟨S32x1x64x1, .f32⟩
  | 95 => ⟨S32x1x64x1, .f32⟩
  | 96 => ⟨S_, .f32⟩
  | 97 => ⟨S32x1x64x1, .f32⟩
  | 98 => ⟨S32x1x64x1, .f32⟩
  | 99 => ⟨S32x1x64x1, .f32⟩
  | 100 => ⟨S32x1x64x32, .f32⟩
  | 101 => ⟨S32x1x64x32, .f32⟩
  | 102 => ⟨S32x2048x64x32, .f32⟩
  | 103 => ⟨S32x2048x64x32, .f32⟩
  | 104 => ⟨S_, .f32⟩
  | 105 => ⟨S32x2048x64, .f32⟩
  | 106 => ⟨S32x2048x64, .f32⟩
  | 107 => ⟨S_, .f32⟩
  | 108 => ⟨S32x2048, .f32⟩
  | 109 => ⟨S_, .f32⟩
  | 110 => ⟨S32x2048, .f32⟩
  | 111 => ⟨S32x2048, .f32⟩
  | 112 => ⟨S32x2048x1, .f32⟩
  | 113 => ⟨S32x2048x64, .f32⟩
  | 114 => ⟨S32x2048x64, .f32⟩
  | 115 => ⟨S32x2048x64, .f32⟩
  | 116 => ⟨S_, .f32⟩
  | 117 => ⟨S32x2048, .f32⟩
  | 118 => ⟨S32x2048x1, .f32⟩
  | 119 => ⟨S32x2048x64, .f32⟩
  | 120 => ⟨S32x2048x64, .f32⟩
  | 121 => ⟨S32x2048x64x1, .f32⟩
  | 122 => ⟨S32x2048x64x32, .f32⟩
  | 123 => ⟨S32x2048x64x32, .f32⟩
  | 124 => ⟨S_, .f32⟩
  | 125 => ⟨S32x64x32, .f32⟩
  | 126 => ⟨S32x1x64x32, .f32⟩
  | 127 => ⟨S32x1x64x32, .f32⟩
  | _ => ⟨S32x2048x16, .f32⟩

abbrev hbmTy0_1 (i : Nat) : BufTy := match i % 128 with
  | 0 => ⟨S_, .f32⟩
  | 1 => ⟨S32x1x64, .f32⟩
  | 2 => ⟨S32x1x64x1, .f32⟩
  | 3 => ⟨S32x1x64x1, .f32⟩
  | 4 => ⟨S32x1x64x1, .f32⟩
  | 5 => ⟨S32x1x64x32, .f32⟩
  | 6 => ⟨S32x1x64x32, .f32⟩
  | 7 => ⟨S_, .f32⟩
  | 8 => ⟨S32x1x64x1, .f32⟩
  | 9 => ⟨S32x1x64x1, .f32⟩
  | 10 => ⟨S_, .f32⟩
  | 11 => ⟨S32x1x64x1, .f32⟩
  | 12 => ⟨S32x1x64x1, .f32⟩
  | 13 => ⟨S32x1x64x1, .f32⟩
  | 14 => ⟨S32x1x64x32, .f32⟩
  | 15 => ⟨S32x1x64x32, .f32⟩
  | 16 => ⟨S32x64x32, .f32⟩
  | _ => ⟨S32x2048x16, .f32⟩

abbrev hbmTy (i : Nat) : BufTy := match i / 128 with
  | 0 => hbmTy0_0 i
  | 1 => hbmTy0_1 i
  | _ => ⟨S32x2048x16, .f32⟩

abbrev bufTy : (tb : Table) → Fin (tcTables nBuf tb) → BufTy
  | .hbm, ⟨i, _⟩ => hbmTy i
  | _, _ => ⟨S32x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_call2_v0 : Ref sig .tc := ⟨.hbm, 85, rfl⟩
abbrev main_call2_cst : Ref sig .tc := ⟨.hbm, 86, rfl⟩
abbrev main_call2_v1 : Ref sig .tc := ⟨.hbm, 87, rfl⟩
abbrev main_call2_v2 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_cst_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_call3_v0 : Ref sig .tc := ⟨.hbm, 127, rfl⟩
abbrev main_call3_cst : Ref sig .tc := ⟨.hbm, 128, rfl⟩
abbrev main_call3_v1 : Ref sig .tc := ⟨.hbm, 129, rfl⟩
abbrev main_call3_v2 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  reducesTo_S32x2048x16_S32x2048_d2 : S32x2048x16.ReducesTo [2] S32x2048
  h_S_ : 0 < S_.numel
  bcast_S32x2048_S32x2048x1_0_1 : S32x2048.BroadcastsInDim S32x2048x1 (![0, 1] : Fin 2 → Fin S32x2048x1.rank)
  bcast_S32x2048x1_S32x2048x16_0_1_2 : S32x2048x1.BroadcastsInDim S32x2048x16 (![0, 1, 2] : Fin 3 → Fin S32x2048x16.rank)
  bcast_S_S32x2048x1 : S_.BroadcastsInDim S32x2048x1 (![] : Fin 0 → Fin S32x2048x1.rank)
  shapeCasts_S1x64x32x16_S64x32x16 : S1x64x32x16.ShapeCasts S64x32x16
  bcast_S_S32x2048x64 : S_.BroadcastsInDim S32x2048x64 (![] : Fin 0 → Fin S32x2048x64.rank)
  reducesTo_S32x2048x64_S32x2048_d2 : S32x2048x64.ReducesTo [2] S32x2048
  bcast_S_S32x2048 : S_.BroadcastsInDim S32x2048 (![] : Fin 0 → Fin S32x2048.rank)
  bcast_S32x2048x1_S32x2048x64_0_1_2 : S32x2048x1.BroadcastsInDim S32x2048x64 (![0, 1, 2] : Fin 3 → Fin S32x2048x64.rank)
  bcast_S32x2048x64_S32x2048x64x1_0_1_2 : S32x2048x64.BroadcastsInDim S32x2048x64x1 (![0, 1, 2] : Fin 3 → Fin S32x2048x64x1.rank)
  bcast_S32x2048x64x1_S32x2048x64x32_0_1_2_3 : S32x2048x64x1.BroadcastsInDim S32x2048x64x32 (![0, 1, 2, 3] : Fin 4 → Fin S32x2048x64x32.rank)
  reducesTo_S32x2048x64x32_S32x64x32_d1 : S32x2048x64x32.ReducesTo [1] S32x64x32
  bcast_S32x64x32_S32x1x64x32_0_2_3 : S32x64x32.BroadcastsInDim S32x1x64x32 (![0, 2, 3] : Fin 3 → Fin S32x1x64x32.rank)
  reducesTo_S32x1x64x32_S32x1x64_d3 : S32x1x64x32.ReducesTo [3] S32x1x64
  bcast_S32x1x64_S32x1x64x1_0_1_2 : S32x1x64.BroadcastsInDim S32x1x64x1 (![0, 1, 2] : Fin 3 → Fin S32x1x64x1.rank)
  bcast_S32x1x64x1_S32x1x64x32_0_1_2_3 : S32x1x64x1.BroadcastsInDim S32x1x64x32 (![0, 1, 2, 3] : Fin 4 → Fin S32x1x64x32.rank)
  bcast_S_S32x1x64x1 : S_.BroadcastsInDim S32x1x64x1 (![] : Fin 0 → Fin S32x1x64x1.rank)
  bcast_S32x1x64x32_S32x2048x64x32_0_1_2_3 : S32x1x64x32.BroadcastsInDim S32x2048x64x32 (![0, 1, 2, 3] : Fin 4 → Fin S32x2048x64x32.rank)
  reducesTo_S32x2048x64x32_S32x2048x64_d3 : S32x2048x64x32.ReducesTo [3] S32x2048x64
  shapeCasts_S32x1x64x32_S32x64x32 : S32x1x64x32.ShapeCasts S32x64x32
  dot_S32x2048x16_S64x32x16_S32x2048x64x32_2_2_01_01_n_n_wf : DotDims.WF S32x2048x16 S64x32x16 S32x2048x64x32 [2] [2] [0, 1] [0, 1] [] []

variable [Facts₀]

def dot_S32x2048x16_S64x32x16_S32x2048x64x32_2_2_01_01_n_n : DotDims S32x2048x16 S64x32x16 S32x2048x64x32 where
  lhsContracting := [2]
  rhsContracting := [2]
  lhsNonContracting := [0, 1]
  rhsNonContracting := [0, 1]
  lhsBatch := []
  rhsBatch := []
  wf := dot_S32x2048x16_S64x32x16_S32x2048x64x32_2_2_01_01_n_n_wf

class Facts : Prop extends Facts₀ where

variable [Facts]
-- ==== Proof.KComb.lean ====
/-
  The kernel's body, stage by stage. Its three routing passes repeat four stages on fresh names: the row softmax of
  the logits; the contraction of the coupling coefficients with the squashed inputs and then with the weight; the
  squash of the resulting rows; and the way back from the output capsules to the agreements. Each stage is written
  here once, as the operations the body applies, and the body's stored value is their composition (`out_eq`).
-/
import proofs.«146784_j6313601925542_1_alg».proof.Proof.Gen.KernelIdeal.Skeleton

noncomputable section

namespace Cert.KernelIdeal.Comb

open Cert.KernelIdeal Cert.KernelIdeal.Gen Idealize.ShloMosaic

variable {F : FTy → Type} [FloatOps F]

/-- The row softmax of the logits: the row maximum (never below -∞) subtracted, the exponentials divided by their
    row sum. -/
def kSoftmax (l : FVec F S2048x64 .f32) : FVec F S2048x64 .f32 :=
  have v21 : FVec F S2048 .f32 := multiReduction .maximumf [1] S2048 l 0xFF800000#32 reduces_S2048x64_S2048 (.inl rfl) rfl
  have v22 : FVec F S2048 .f32 := broadcast S2048 (Scalar.ofBits .f32 0xFF800000#32)
  have v23 : FVec F S2048 .f32 := maximumf v22 v21
  have v24 : FVec F S2048x1 .f32 := shapeCast S2048x1 v23 shapeCasts_S2048_S2048x1
  have v25 : FVec F S2048x64 .f32 := broadcastTo S2048x64 v24 broadcasts_S2048x1_S2048x64
  have v26 : FVec F S2048x64 .f32 := subf l v25
  have v27 : FVec F S2048x64 .f32 := exp v26
  have v28 : FVec F S2048 .f32 := multiReduction .add [1] S2048 v27 0x00000000#32 reduces_S2048x64_S2048 (.inl rfl) rfl
  have v29 : FVec F S2048x1 .f32 := shapeCast S2048x1 v28 shapeCasts_S2048_S2048x1
  have v30 : FVec F S2048x64 .f32 := broadcastTo S2048x64 v29 broadcasts_S2048x1_S2048x64
  divf v27 v30

/-- The coupling coefficients contracted with the squashed inputs over the input capsules (the matrix unit), then
    with the weight over the input width (a broadcast product and a sum along the last axis). -/
def kProj (c : FVec F S2048x64 .f32) (xs : FVec F S2048x16 .bf16) (w : FVec F S64x32x16 .f32) : FVec F S64x32 .f32 :=
  have v32 : FVec F S2048x64 .bf16 := truncf .bf16 c bitsLt_bf16_f32
  have v33 : FVec F S64x2048 .bf16 := transpose S64x2048 [1, 0] v32 transposes_S2048x64_p1_0_S64x2048
  have cst_14 : FVec F S64x16 .f32 := constant S64x16 .f32 0x00000000#32
  have v34 : FVec F S64x16 .f32 := matmul dot_S64x2048_S2048x16_S64x16_1_0_0_1_n_n none v33 xs cst_14
  have v35 : FVec F S64x1x16 .f32 := shapeCast S64x1x16 v34 shapeCasts_S64x16_S64x1x16
  have v36 : FVec F S64x32x16 .f32 := broadcastTo S64x32x16 v35 broadcasts_S64x1x16_S64x32x16
  have v37 : FVec F S64x32x16 .f32 := mulf v36 w
  multiReduction .add [2] S64x32 v37 0x00000000#32 reduces_S64x32x16_S64x32 (.inl rfl) rfl

/-- The squash of the rows of a [64, 32] array. -/
def kSquash (s : FVec F S64x32 .f32) : FVec F S64x32 .f32 :=
  have v39 : FVec F S64x32 .f32 := mulf s s
  have v40 : FVec F S64 .f32 := multiReduction .add [1] S64 v39 0x00000000#32 reduces_S64x32_S64 (.inl rfl) rfl
  have v41 : FVec F S64x1 .f32 := shapeCast S64x1 v40 shapeCasts_S64_S64x1
  have v42 : FVec F S64x1 .f32 := sqrt v41
  have v43 : FVec F S64x32 .f32 := broadcastTo S64x32 v41 broadcasts_S64x1_S64x32
  have v44 : FVec F S64x32 .f32 := mulf v43 s
  have cst_17 : F .f32 := Scalar.ofBits .f32 0x3F000000#32
  have v45 : FVec F S64x1 .f32 := broadcast S64x1 cst_17
  have v46 : FVec F S64x1 .f32 := addf v45 v41
  have cst_18 : F .f32 := Scalar.ofBits .f32 0x322BCC77#32
  have v47 : FVec F S64x1 .f32 := broadcast S64x1 cst_18
  have v48 : FVec F S64x1 .f32 := addf v47 v42
  have v49 : FVec F S64x1 .f32 := mulf v46 v48
  have v50 : FVec F S64x32 .f32 := broadcastTo S64x32 v49 broadcasts_S64x1_S64x32
  divf v44 v50

/-- From the output capsules back to the agreements: contracted with the transposed weight over the output width,
    then with the squashed inputs over the input width (the matrix unit). -/
def kAgree (v : FVec F S64x32 .f32) (xs : FVec F S2048x16 .bf16) (wt : FVec F S64x16x32 .f32) : FVec F S2048x64 .f32 :=
  have v52 : FVec F S64x1x32 .f32 := shapeCast S64x1x32 v shapeCasts_S64x32_S64x1x32
  have v53 : FVec F S64x16x32 .f32 := broadcastTo S64x16x32 v52 broadcasts_S64x1x32_S64x16x32
  have v54 : FVec F S64x16x32 .f32 := mulf v53 wt
  have v55 : FVec F S64x16 .f32 := multiReduction .add [2] S64x16 v54 0x00000000#32 reduces_S64x16x32_S64x16 (.inl rfl) rfl
  have v56 : FVec F S64x16 .bf16 := truncf .bf16 v55 bitsLt_bf16_f32
  have v57 : FVec F S16x64 .bf16 := transpose S16x64 [1, 0] v56 transposes_S64x16_p1_0_S16x64
  have cst_20 : FVec F S2048x64 .f32 := constant S2048x64 .f32 0x00000000#32
  matmul dot_S2048x16_S16x64_S2048x64_1_0_0_1_n_n none xs v57 cst_20

/-- One routing pass: the output capsules from the logits. -/
def kStep (xs : FVec F S2048x16 .bf16) (w : FVec F S64x32x16 .f32) (l : FVec F S2048x64 .f32) : FVec F S64x32 .f32 :=
  kSquash (kProj (kSoftmax l) xs w)

/-- The next logits. -/
def kNext (xs : FVec F S2048x16 .bf16) (w : FVec F S64x32x16 .f32) (wt : FVec F S64x16x32 .f32) (l : FVec F S2048x64 .f32) :
    FVec F S2048x64 .f32 :=
  addf l (kAgree (kStep xs w l) xs wt)

/-- The body's stored value: three passes from zero logits, the last pass's output capsules, as a [1, 64, 32] block. -/
theorem out_eq (v0 : Vec F S1x2048x16 .f32) (v16 : Vec F S64x32x16 .f32) (v18 : Vec F S64x16x32 .f32) :
    k0_pay13 (k0_pay1 v0) (k0_pay2 v16) (k0_pay3 v18)
        (k0_pay7 (k0_pay1 v0) (k0_pay3 v18) (k0_pay4 (F := F)) (k0_pay5 v0 v16) (k0_pay6 v0 v16))
        (k0_pay10 (k0_pay1 v0) (k0_pay2 v16) (k0_pay3 v18) (k0_pay4 (F := F)) (k0_pay5 v0 v16) (k0_pay6 v0 v16))
        (k0_pay11 (k0_pay1 v0) (k0_pay2 v16) (k0_pay3 v18) (k0_pay4 (F := F)) (k0_pay5 v0 v16) (k0_pay6 v0 v16))
        (k0_pay12 (k0_pay1 v0) (k0_pay2 v16) (k0_pay3 v18) (k0_pay4 (F := F)) (k0_pay5 v0 v16) (k0_pay6 v0 v16))
      = shapeCast S1x64x32
          (kStep (k0_pay1 v0) (k0_pay2 v16)
            (kNext (k0_pay1 v0) (k0_pay2 v16) (k0_pay3 v18)
              (kNext (k0_pay1 v0) (k0_pay2 v16) (k0_pay3 v18) (k0_pay4 (F := F)))))
          shapeCasts_S64x32_S1x64x32 := rfl

end Cert.KernelIdeal.Comb

end
-- ==== Proof.Spec.lean ====
/-
  Capsule routing over the reals: the functions both programs compute, entry by entry, once every input is a real
  number.

  One batch entry holds N input capsules of width I (a matrix X), routed to O output capsules of width D through a
  shared weight W[o, d, i]. The squash of a row x is  (|x|² · x) / ((h + |x|²) · (e + |x|))  for two positive
  constants h and e. Routing keeps logits L[n, o], starts them at zero, and three times takes the row softmax c of
  L, the weighted sums s[o, d] = Σ_n c[n, o] · u[n, o, d] of the predictions u[n, o, d] = Σ_i xs[n, i] · W[o, d, i],
  their squash v, and (the first two times) adds the agreements Σ_d u[n, o, d] · v[o, d] to L.

  The kernel never forms u: it contracts over n first (t[o, i] = Σ_n c[n, o] · xs[n, i], s[o, d] = Σ_i t[o, i] ·
  W[o, d, i]) and, for the agreements, over d first (q[o, i] = Σ_d v[o, d] · W[o, d, i], then Σ_i xs[n, i] · q[o, i]).
  Both orders are one double sum; `proj_coup` and `agreeQ_back` say so, and `kOut_eq_rOut` follows.
-/
import Idealize.ShloMosaic.PureOps.Ideal
import Idealize.ShloMosaic.Lib.ValueIdx

noncomputable section

namespace Cert.Caps

open Idealize.ShloMosaic Idealize.ShloMosaic.ValueIdx

/-- Real arrays of rank 2, 3 and 4, indexed as the programs index theirs. -/
abbrev R2 (a b : ℕ) := (⟨2, ![a, b]⟩ : Shape).Idx → ℝ
abbrev R3 (a b c : ℕ) := (⟨3, ![a, b, c]⟩ : Shape).Idx → ℝ
abbrev R4 (a b c d : ℕ) := (⟨4, ![a, b, c, d]⟩ : Shape).Idx → ℝ

variable {B n i o d a b : ℕ}

/-- A real array read as an array of extended reals, entry by entry. -/
def up {S : Shape} (A : S.Idx → ℝ) : S.Idx → EReal := fun j => ((A j : ℝ) : EReal)

theorem up_apply {S : Shape} (A : S.Idx → ℝ) (j : S.Idx) : up A j = ((A j : ℝ) : EReal) := rfl

/-! ## One batch entry -/

/-- The squared length of row `p`. -/
def sq2 (X : R2 a b) (p : Fin a) : ℝ := ∑ k : Fin b, X (ix2 p k) * X (ix2 p k)

theorem sq2_nonneg (X : R2 a b) (p : Fin a) : 0 ≤ sq2 X p :=
  Finset.sum_nonneg fun _ _ => mul_self_nonneg _

/-- The squash of an entry `x` of a row of squared length `S` and length `N`. -/
def squashVal (h e S N x : ℝ) : ℝ := (S * x) / ((h + S) * (e + N))

/-- The squash, row by row. -/
def squash2 (h e : ℝ) (X : R2 a b) : R2 a b :=
  fun j => squashVal h e (sq2 X (j 0)) (Real.sqrt (sq2 X (j 0))) (X j)

/-- The row softmax. -/
def softmax2 (L : R2 a b) : R2 a b :=
  fun j => Real.exp (L j) / ∑ k : Fin b, Real.exp (L (ix2 (j 0) k))

/-- Predictions: u[n, o, d] = Σ_i xs[n, i] · W[o, d, i]. -/
def pred (Xs : R2 n i) (W : R3 o d i) : R3 n o d :=
  fun j => ∑ k : Fin i, Xs (ix2 (j 0) k) * W (ix3 (j 1) (j 2) k)

/-- Weighted sums: s[o, d] = Σ_n c[n, o] · u[n, o, d]. -/
def wsum (C : R2 n o) (U : R3 n o d) : R2 o d :=
  fun j => ∑ k : Fin n, C (ix2 k (j 0)) * U (ix3 k (j 0) (j 1))

/-- Agreements from the predictions: a[n, o] = Σ_d u[n, o, d] · v[o, d]. -/
def agreeU (U : R3 n o d) (V : R2 o d) : R2 n o :=
  fun j => ∑ k : Fin d, U (ix3 (j 0) (j 1) k) * V (ix2 (j 1) k)

/-- The kernel's first contraction: t[o, i] = Σ_n c[n, o] · xs[n, i]. -/
def coup (C : R2 n o) (Xs : R2 n i) : R2 o i :=
  fun j => ∑ k : Fin n, C (ix2 k (j 0)) * Xs (ix2 k (j 1))

/-- Its second: s[o, d] = Σ_i t[o, i] · W[o, d, i]. -/
def proj (T : R2 o i) (W : R3 o d i) : R2 o d :=
  fun j => ∑ k : Fin i, T (ix2 (j 0) k) * W (ix3 (j 0) (j 1) k)

/-- The weight with its last two axes exchanged. -/
def tr3 (W : R3 o d i) : R3 o i d := fun j => W (ix3 (j 0) (j 2) (j 1))

/-- The kernel's way back: q[o, i] = Σ_d v[o, d] · Wt[o, i, d]. -/
def back (V : R2 o d) (Wt : R3 o i d) : R2 o i :=
  fun j => ∑ k : Fin d, V (ix2 (j 0) k) * Wt (ix3 (j 0) (j 1) k)

/-- Agreements from q: a[n, o] = Σ_i xs[n, i] · q[o, i]. -/
def agreeQ (Xs : R2 n i) (Q : R2 o i) : R2 n o :=
  fun j => ∑ k : Fin i, Xs (ix2 (j 0) k) * Q (ix2 (j 1) k)

/-- Entrywise sum, and the zero logits. -/
def add2 (L A : R2 a b) : R2 a b := fun j => L j + A j
def zero2 : R2 a b := fun _ => 0

/-- One routing pass of the kernel: the output capsules from the logits. -/
def kStep (h e : ℝ) (Xs : R2 n i) (W : R3 o d i) (L : R2 n o) : R2 o d :=
  squash2 h e (proj (coup (softmax2 L) Xs) W)
/-- The kernel's next logits. -/
def kNext (h e : ℝ) (Xs : R2 n i) (W : R3 o d i) (L : R2 n o) : R2 n o :=
  add2 L (agreeQ Xs (back (kStep h e Xs W L) (tr3 W)))
/-- The kernel's result for one batch entry. -/
def kOut (h e : ℝ) (X : R2 n i) (W : R3 o d i) : R2 o d :=
  kStep h e (squash2 h e X) W (kNext h e (squash2 h e X) W (kNext h e (squash2 h e X) W zero2))

/-- One routing pass of the reference. -/
def rStep (h e : ℝ) (U : R3 n o d) (L : R2 n o) : R2 o d :=
  squash2 h e (wsum (softmax2 L) U)
/-- The reference's next logits. -/
def rNext (h e : ℝ) (U : R3 n o d) (L : R2 n o) : R2 n o :=
  add2 L (agreeU U (rStep h e U L))
/-- The reference's result for one batch entry. -/
def rOut (h e : ℝ) (X : R2 n i) (W : R3 o d i) : R2 o d :=
  rStep h e (pred (squash2 h e X) W) (rNext h e (pred (squash2 h e X) W) (rNext h e (pred (squash2 h e X) W) zero2))

/-! ## The two orders of summation agree -/

/-- Contracting over n and then over i is contracting over i inside the sum over n. -/
theorem proj_coup (C : R2 n o) (Xs : R2 n i) (W : R3 o d i) : proj (coup C Xs) W = wsum C (pred Xs W) := by
  funext j
  simp only [proj, coup, wsum, pred]
  simp only [Finset.sum_mul, Finset.mul_sum]
  rw [Finset.sum_comm]
  refine Finset.sum_congr rfl fun k _ => Finset.sum_congr rfl fun l _ => ?_
  exact mul_assoc _ _ _

/-- Contracting over d and then over i is contracting over i inside the sum over d. -/
theorem agreeQ_back (Xs : R2 n i) (V : R2 o d) (W : R3 o d i) :
    agreeQ Xs (back V (tr3 W)) = agreeU (pred Xs W) V := by
  funext j
  simp only [agreeQ, back, tr3, agreeU, pred]
  simp only [Finset.sum_mul, Finset.mul_sum]
  rw [Finset.sum_comm]
  refine Finset.sum_congr rfl fun k _ => Finset.sum_congr rfl fun l _ => ?_
  show Xs (ix2 (j 0) l) * (V (ix2 (j 1) k) * W (ix3 (j 1) k l)) = Xs (ix2 (j 0) l) * W (ix3 (j 1) k l) * V (ix2 (j 1) k)
  ring

theorem kStep_eq_rStep (h e : ℝ) (Xs : R2 n i) (W : R3 o d i) (L : R2 n o) :
    kStep h e Xs W L = rStep h e (pred Xs W) L := by
  unfold kStep rStep; rw [proj_coup]

theorem kNext_eq_rNext (h e : ℝ) (Xs : R2 n i) (W : R3 o d i) (L : R2 n o) :
    kNext h e Xs W L = rNext h e (pred Xs W) L := by
  unfold kNext rNext; rw [agreeQ_back, kStep_eq_rStep]

/-- The kernel and the reference compute one function of a batch entry. -/
theorem kOut_eq_rOut (h e : ℝ) (X : R2 n i) (W : R3 o d i) : kOut h e X W = rOut h e X W := by
  unfold kOut rOut; rw [kStep_eq_rStep, kNext_eq_rNext, kNext_eq_rNext]

/-! ## With a leading batch axis -/

/-- Batch entry `t` of a rank-3 and of a rank-4 array. -/
def bat3 (X : R3 B a b) (t : Fin B) : R2 a b := fun j => X (ix3 t (j 0) (j 1))
def bat4 (U : R4 B n o d) (t : Fin B) : R3 n o d := fun j => U (ix4 t (j 0) (j 1) (j 2))
/-- A [B, 1, o, d] array's batch entry, the unit axis dropped. -/
def bat41 (S : R4 B 1 o d) (t : Fin B) : R2 o d := fun j => S (ix4 t 0 (j 0) (j 1))

/-- Each per-entry function applied to every batch entry. -/
def squash3 (h e : ℝ) (X : R3 B a b) : R3 B a b := fun j => squash2 h e (bat3 X (j 0)) (ix2 (j 1) (j 2))
def softmax3 (L : R3 B a b) : R3 B a b := fun j => softmax2 (bat3 L (j 0)) (ix2 (j 1) (j 2))
def pred4 (Xs : R3 B n i) (W : R3 o d i) : R4 B n o d := fun j => pred (bat3 Xs (j 0)) W (ix3 (j 1) (j 2) (j 3))
def wsum4 (C : R3 B n o) (U : R4 B n o d) : R4 B 1 o d := fun j => wsum (bat3 C (j 0)) (bat4 U (j 0)) (ix2 (j 2) (j 3))
def squash4 (h e : ℝ) (S : R4 B 1 o d) : R4 B 1 o d := fun j => squash2 h e (bat41 S (j 0)) (ix2 (j 2) (j 3))
def agree3 (U : R4 B n o d) (V : R4 B 1 o d) : R3 B n o := fun j => agreeU (bat4 U (j 0)) (bat41 V (j 0)) (ix2 (j 1) (j 2))
def add3 (L A : R3 B a b) : R3 B a b := fun j => L j + A j
def zero3 : R3 B a b := fun _ => 0
/-- A [B, 1, o, d] array with the unit axis dropped. -/
def drop41 (S : R4 B 1 o d) : R3 B o d := fun j => S (ix4 (j 0) 0 (j 1) (j 2))

/-- The weight [1, o, d, i] without its leading unit axis, and a [1, a, b] block without its. -/
def w3 (W4 : R4 1 o d i) : R3 o d i := fun j => W4 (ix4 0 (j 0) (j 1) (j 2))
def blk3 (X3 : R3 1 a b) : R2 a b := fun j => X3 (ix3 0 (j 0) (j 1))
/-- A matrix as a [1, a, b] block, and batch entry `t` of a [B, a, b] array as a [1, a, b] block. -/
def lead1 (A : R2 a b) : R3 1 a b := fun y => A (ix2 (y 1) (y 2))
def xblk (X : R3 B a b) (t : Fin B) : R3 1 a b := fun y => X (ix3 t (y 1) (y 2))

theorem blk3_xblk (X : R3 B a b) (t : Fin B) : blk3 (xblk X t) = bat3 X t := rfl

/-- THE RESULT both programs compute: for every batch entry, the routing of that entry's input capsules. -/
def G (h e : ℝ) (X : R3 B n i) (W4 : R4 1 o d i) : R3 B o d :=
  fun j => kOut h e (bat3 X (j 0)) (w3 W4) (ix2 (j 1) (j 2))

/-! ### A batch entry of each batched function is the per-entry function of the batch entries -/

theorem bat3_squash3 (h e : ℝ) (X : R3 B a b) (t : Fin B) : bat3 (squash3 h e X) t = squash2 h e (bat3 X t) := by
  funext j; exact congrArg (squash2 h e (bat3 X t)) (eq_ix2 j).symm
theorem bat3_softmax3 (L : R3 B a b) (t : Fin B) : bat3 (softmax3 L) t = softmax2 (bat3 L t) := by
  funext j; exact congrArg (softmax2 (bat3 L t)) (eq_ix2 j).symm
theorem bat4_pred4 (Xs : R3 B n i) (W : R3 o d i) (t : Fin B) : bat4 (pred4 Xs W) t = pred (bat3 Xs t) W := by
  funext j; exact congrArg (pred (bat3 Xs t) W) (eq_ix3 j).symm
theorem bat41_wsum4 (C : R3 B n o) (U : R4 B n o d) (t : Fin B) : bat41 (wsum4 C U) t = wsum (bat3 C t) (bat4 U t) := by
  funext j; exact congrArg (wsum (bat3 C t) (bat4 U t)) (eq_ix2 j).symm
theorem bat41_squash4 (h e : ℝ) (S : R4 B 1 o d) (t : Fin B) : bat41 (squash4 h e S) t = squash2 h e (bat41 S t) := by
  funext j; exact congrArg (squash2 h e (bat41 S t)) (eq_ix2 j).symm
theorem bat3_agree3 (U : R4 B n o d) (V : R4 B 1 o d) (t : Fin B) : bat3 (agree3 U V) t = agreeU (bat4 U t) (bat41 V t) := by
  funext j; exact congrArg (agreeU (bat4 U t) (bat41 V t)) (eq_ix2 j).symm
theorem bat3_add3 (L A : R3 B a b) (t : Fin B) : bat3 (add3 L A) t = add2 (bat3 L t) (bat3 A t) := rfl
theorem bat3_zero3 (t : Fin B) : bat3 (zero3 : R3 B a b) t = zero2 := rfl
theorem drop41_apply (S : R4 B 1 o d) (j : (⟨3, ![B, o, d]⟩ : Shape).Idx) : drop41 S j = bat41 S (j 0) (ix2 (j 1) (j 2)) := rfl

/-- The reference's batched routing: the stages applied to whole batched arrays. -/
def rStep3 (h e : ℝ) (U : R4 B n o d) (L : R3 B n o) : R4 B 1 o d := squash4 h e (wsum4 (softmax3 L) U)
def rNext3 (h e : ℝ) (U : R4 B n o d) (L : R3 B n o) : R3 B n o := add3 L (agree3 U (rStep3 h e U L))

theorem bat41_rStep3 (h e : ℝ) (U : R4 B n o d) (L : R3 B n o) (t : Fin B) :
    bat41 (rStep3 h e U L) t = rStep h e (bat4 U t) (bat3 L t) := by
  unfold rStep3 rStep; rw [bat41_squash4, bat41_wsum4, bat3_softmax3]
theorem bat3_rNext3 (h e : ℝ) (U : R4 B n o d) (L : R3 B n o) (t : Fin B) :
    bat3 (rNext3 h e U L) t = rNext h e (bat4 U t) (bat3 L t) := by
  unfold rNext3 rNext; rw [bat3_add3, bat3_agree3, bat41_rStep3]

/-- The reference's batched result, the kept unit axis dropped, is `G`. -/
theorem drop41_rOut3 (h e : ℝ) (X : R3 B n i) (W4 : R4 1 o d i) :
    drop41 (rStep3 h e (pred4 (squash3 h e X) (w3 W4))
      (rNext3 h e (pred4 (squash3 h e X) (w3 W4)) (rNext3 h e (pred4 (squash3 h e X) (w3 W4)) zero3)))
      = G h e X W4 := by
  funext j
  obtain ⟨t, p, q, rfl⟩ : ∃ (t : Fin B) (p : Fin o) (q : Fin d), j = ix3 t p q := ⟨j 0, j 1, j 2, eq_ix3 j⟩
  show bat41 (rStep3 h e (pred4 (squash3 h e X) (w3 W4))
      (rNext3 h e (pred4 (squash3 h e X) (w3 W4)) (rNext3 h e (pred4 (squash3 h e X) (w3 W4)) zero3))) t (ix2 p q)
    = kOut h e (bat3 X t) (w3 W4) (ix2 p q)
  rw [bat41_rStep3, bat3_rNext3, bat3_rNext3, bat3_zero3, bat4_pred4, bat3_squash3, kOut_eq_rOut]
  rfl

end Cert.Caps

end
-- ==== Proof.Consts.lean ====
/-
  The float constants the two programs spell, as the extended reals their patterns denote: one half, the small positive
  number added to a capsule's length (11258999 · 2⁻⁵⁰, the single-precision float nearest 10⁻⁸), and -∞.
-/
import Idealize.ShloMosaic.PureOps.Ideal
import Idealize.ShloMosaic.PureOps.Ideal.Laws

noncomputable section

namespace Cert.Consts

open Idealize.ShloMosaic

/-- The small positive constant: 11258999 · 2⁻⁵⁰. -/
def epsR : ℝ := 11258999 * (2 : ℝ) ^ (-50 : ℤ)

theorem epsR_pos : 0 < epsR := by
  unfold epsR; positivity

/-- `0.5` denotes the real 1/2. -/
theorem ofBits_half : Ideal.ofBits .f32 0x3F000000#32 = (((1 : ℝ) / 2 : ℝ) : EReal) := by
  simp [Ideal.ofBits, Ideal.ieee, -EReal.coe_mul]; norm_num

/-- `9.99999993E-9` denotes the real `epsR`. -/
theorem ofBits_eps : Ideal.ofBits .f32 0x322BCC77#32 = ((epsR : ℝ) : EReal) := by
  simp [Ideal.ofBits, Ideal.ieee, -EReal.coe_mul]; unfold epsR; norm_num

/-- The pattern of -∞ denotes `⊥`. -/
theorem ofBits_neg_inf : Ideal.ofBits .f32 0xFF800000#32 = (⊥ : EReal) := by
  simp [Ideal.ofBits, Ideal.ieee]

end Cert.Consts

end
-- ==== Proof.LibEReal.lean ====
/-
  Extended reals that are real numbers: the exact operations on them are the real operations, so a computation whose
  inputs are real stays inside the reals as long as no operation leaves them.

    a finite sum of reals is the real sum;  a quotient by a nonzero real is the real quotient;
    the root of a nonnegative real is the real root;  the largest of finitely many reals (at least one), taken from
    -∞, is a real;  and a softmax does not change when one number is subtracted from every logit.
-/
import Idealize.ShloMosaic.PureOps.Ideal

noncomputable section

namespace Idealize.ShloMosaic.ERealCoe

open Idealize.ShloMosaic

/-- The coercion of a finite real sum is the sum of the coercions. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (a b : ℝ) (hb : b ≠ 0) : Ideal.div (a : EReal) (b : EReal) = ((a / b : ℝ) : EReal) := by
  unfold Ideal.div
  rw [if_neg (EReal.coe_ne_zero.mpr hb), ← EReal.coe_inv, ← EReal.coe_mul, div_eq_mul_inv]

/-- The exact root of a nonnegative real is the real root. -/
theorem sqrt_coe_of_nonneg (a : ℝ) (ha : 0 ≤ a) : Ideal.sqrt (a : EReal) = ((Real.sqrt a : ℝ) : EReal) := by
  rw [Ideal.sqrt_coe, if_neg (not_lt.mpr ha)]

/-- Over a nonempty finite set, the fold of `max` from -∞ over coercions of reals is the coercion of a real: with one
    element it is that element (`max x ⊥ = x`), and one more element replaces the real `M` by the larger of the two. -/
private theorem fold_max_coe {ι : Type*} [DecidableEq ι] (g : ι → ℝ) (s : Finset ι) :
    s.Nonempty → ∃ M : ℝ, s.fold max (⊥ : EReal) (fun k => ((g k : ℝ) : EReal)) = (M : EReal) := by
  induction s using Finset.induction_on with
  | empty => intro h; exact absurd h Finset.not_nonempty_empty
  | insert a s ha ih =>
    intro _
    rw [Finset.fold_insert ha]
    rcases s.eq_empty_or_nonempty with hs | hs
    · subst hs
      exact ⟨g a, by rw [Finset.fold_empty]; exact max_eq_left bot_le⟩
    · obtain ⟨M, hM⟩ := ih hs
      rw [hM]
      rcases le_total (g a) M with h | h
      · exact ⟨M, max_eq_right (EReal.coe_le_coe_iff.mpr h)⟩
      · exact ⟨g a, max_eq_left (EReal.coe_le_coe_iff.mpr h)⟩

/-- The largest of finitely many reals, at least one of them, folded from -∞ and once more compared with -∞, is a real. -/
theorem max_bot_fold_max_coe {b : ℕ} (hb : 0 < b) (f : Fin b → ℝ) :
    ∃ M : ℝ, max (⊥ : EReal) ((Finset.univ : Finset (Fin b)).fold max (⊥ : EReal) (fun k => ((f k : ℝ) : EReal))) = (M : EReal) := by
  obtain ⟨M, hM⟩ := fold_max_coe f Finset.univ ⟨⟨0, hb⟩, Finset.mem_univ _⟩
  exact ⟨M, by rw [hM]; exact max_eq_right bot_le⟩

/-- A softmax is unchanged when one number is subtracted from every logit. -/
theorem exp_sub_div_sum {b : ℕ} (M : ℝ) (f : Fin b → ℝ) (k : Fin b) :
    Real.exp (f k - M) / ∑ l : Fin b, Real.exp (f l - M) = Real.exp (f k) / ∑ l : Fin b, Real.exp (f l) := by
  have h : ∀ l, Real.exp (f l - M) = Real.exp (f l) * Real.exp (-M) := fun l => by
    rw [sub_eq_add_neg, Real.exp_add]
  simp only [h]
  rw [← Finset.sum_mul]
  exact mul_div_mul_right _ _ (Real.exp_ne_zero _)

/-- A sum of exponentials over at least one term is positive. -/
theorem sum_exp_pos {b : ℕ} (hb : 0 < b) (f : Fin b → ℝ) : 0 < ∑ l : Fin b, Real.exp (f l) := by
  haveI : Nonempty (Fin b) := ⟨⟨0, hb⟩⟩
  exact Finset.sum_pos (fun l _ => Real.exp_pos _) Finset.univ_nonempty

end Idealize.ShloMosaic.ERealCoe

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KSoftmax.lean ====
/-
  The kernel's softmax stage on real logits: every entry of the result is the real softmax of its row.
  The row maximum the stage subtracts is a real number (a row has 64 real entries), and a softmax does not depend on
  what is subtracted from every logit of a row.
-/
import proofs.«146784_j6313601925542_1_alg».proof.Proof.KComb
import proofs.«146784_j6313601925542_1_alg».proof.Proof.Spec
import proofs.«146784_j6313601925542_1_alg».proof.Proof.Consts
import proofs.«146784_j6313601925542_1_alg».proof.Proof.LibEReal
import proofs.«146784_j6313601925542_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRead

open Cert.KernelIdeal Cert.KernelIdeal.Gen Cert.Caps Cert.Consts Idealize.ShloMosaic Idealize.ShloMosaic.ValueIdx
open Idealize.ShloMosaic.ERealCoe Idealize.ShloMosaic.Keepdims

/-- The index a reduction over the columns inserts into row `n` at coordinate `k` is `(n, k)`. -/
private theorem lift_row (n : Fin 2048) (k : Fin 64) :
    reduces_S2048x64_S2048.lift (ix1 n) k = ix2 n k := by
  funext a
  match a with
  | ⟨0, _⟩ => exact Fin.ext rfl
  | ⟨1, _⟩ => exact Fin.ext rfl

/-- A per-row value kept as a column and spread over the 64 columns reads, at `(n, o)`, the value of row `n`. -/
private theorem col_apply (v : FVec Ideal S2048 .f32) (n : Fin 2048) (o : Fin 64) :
    broadcastTo S2048x64 (shapeCast S2048x1 v shapeCasts_S2048_S2048x1) broadcasts_S2048x1_S2048x64 (ix2 n o)
      = v (ix1 n) :=
  (broadcastTo_a1_ab_apply _ broadcasts_S2048x1_S2048x64 n o).trans
    (shapeCast_a_a1_apply v shapeCasts_S2048_S2048x1 n 0)

/-- The sum over the columns, at row `n`: the sum of the row's 64 entries. -/
private theorem rowSum_apply (w : FVec Ideal S2048x64 .f32) (n : Fin 2048) :
    multiReduction (F := Ideal) .add [1] S2048 w 0x00000000#32 reduces_S2048x64_S2048 (.inl rfl) rfl (ix1 n)
      = ∑ k : Fin 64, w (ix2 n k) := by
  refine (Ideal.multiReduction_add_single w _ reduces_S2048x64_S2048 (.inl rfl) rfl (ix1 n)).trans ?_
  exact Finset.sum_congr rfl fun k _ => congrArg w (lift_row n k)

/-- The row maximum the stage subtracts is a real number. -/
private theorem rowMax_real (L : R2 2048 64) (n : Fin 2048) :
    ∃ M : ℝ, maximumf (broadcast S2048 (Scalar.ofBits (F := Ideal) .f32 0xFF800000#32))
        (multiReduction (F := Ideal) .maximumf [1] S2048 (up L) 0xFF800000#32 reduces_S2048x64_S2048 (.inl rfl) rfl) (ix1 n)
      = (M : EReal) := by
  obtain ⟨M, hM⟩ := max_bot_fold_max_coe (b := 64) (by norm_num) (fun k => L (ix2 n k))
  refine ⟨M, ?_⟩
  rw [← hM]
  have h1 : FloatOps.ofBits (F := Ideal) .f32 0xFF800000#32 = (⊥ : EReal) := (Ideal.ofBits_def _).trans ofBits_neg_inf
  have h2 : multiReduction (F := Ideal) .maximumf [1] S2048 (up L) 0xFF800000#32 reduces_S2048x64_S2048 (.inl rfl) rfl (ix1 n)
      = (Finset.univ : Finset (Fin 64)).fold max (⊥ : EReal) (fun k => ((L (ix2 n k) : ℝ) : EReal)) := by
    refine (Ideal.multiReduction_maximumf_single (φ := .f32) (up L) 0xFF800000#32 reduces_S2048x64_S2048 (.inl rfl) rfl (ix1 n)).trans ?_
    have hf : (up L ∘ reduces_S2048x64_S2048.lift (ix1 n)) = fun k : Fin 64 => ((L (ix2 n k) : ℝ) : EReal) :=
      funext fun k => congrArg (up L) (lift_row n k)
    show (Finset.univ : Finset (Fin 64)).fold max (FloatOps.ofBits (F := Ideal) .f32 0xFF800000#32)
        (up L ∘ reduces_S2048x64_S2048.lift (ix1 n)) = _
    rw [hf, h1]
    rfl
  exact congrArg₂ max h1 h2

/-- With the row's subtracted value a real `M`: the exponentials of the shifted logits divided by their row sum are the
    row softmax, the sum being a positive real. -/
private theorem softmax_core (L : R2 2048 64) (m : FVec Ideal S2048 .f32) (n : Fin 2048) (M : ℝ)
    (hm : m (ix1 n) = (M : EReal)) (o : Fin 64) :
    divf
        (exp (subf (up L)
          (broadcastTo S2048x64 (shapeCast S2048x1 m shapeCasts_S2048_S2048x1) broadcasts_S2048x1_S2048x64)))
        (broadcastTo S2048x64
          (shapeCast S2048x1
            (multiReduction (F := Ideal) .add [1] S2048
              (exp (subf (up L)
                (broadcastTo S2048x64 (shapeCast S2048x1 m shapeCasts_S2048_S2048x1) broadcasts_S2048x1_S2048x64)))
              0x00000000#32 reduces_S2048x64_S2048 (.inl rfl) rfl)
            shapeCasts_S2048_S2048x1)
          broadcasts_S2048x1_S2048x64)
        (ix2 n o)
      = up (softmax2 L) (ix2 n o) := by
  -- every exponential of row n is the real exponential of the logit less M
  have hexp : ∀ k : Fin 64,
      exp (subf (up L)
          (broadcastTo S2048x64 (shapeCast S2048x1 m shapeCasts_S2048_S2048x1) broadcasts_S2048x1_S2048x64)) (ix2 n k)
        = ((Real.exp (L (ix2 n k) - M) : ℝ) : EReal) := by
    intro k
    show Ideal.exp (up L (ix2 n k)
        - broadcastTo S2048x64 (shapeCast S2048x1 m shapeCasts_S2048_S2048x1) broadcasts_S2048x1_S2048x64 (ix2 n k)) = _
    rw [col_apply, hm, up_apply, ← EReal.coe_sub, Ideal.exp_coe]
  -- their sum over the row is the real sum, which is positive
  have hpos : (0 : ℝ) < ∑ k : Fin 64, Real.exp (L (ix2 n k) - M) :=
    sum_exp_pos (by norm_num) (fun k => L (ix2 n k) - M)
  refine (divf_apply _ _ _).trans ?_
  rw [col_apply, rowSum_apply, hexp o, Finset.sum_congr rfl fun k _ => hexp k, ← coe_sum,
    div_coe_coe _ _ hpos.ne', up_apply]
  exact congrArg _ (exp_sub_div_sum M (fun k => L (ix2 n k)) o)

/-- On real logits the kernel's softmax stage is the real row softmax. -/
theorem kSoftmax_up (L : R2 2048 64) : Comb.kSoftmax (F := Ideal) (up L) = up (softmax2 L) := by
  funext j
  obtain ⟨n, o, rfl⟩ : ∃ (n : Fin 2048) (o : Fin 64), j = ix2 n o := ⟨j 0, j 1, eq_ix2 j⟩
  obtain ⟨M, hM⟩ := rowMax_real L n
  unfold Comb.kSoftmax
  exact softmax_core L _ n M hM o

end Cert.KernelIdeal.KRead

end
-- ==== Proof.KProj.lean ====
/-
  The kernel's two contractions on real operands: the coupling coefficients with the squashed inputs over the 2048
  input capsules (the matrix unit), then with the weight over the input width 16.
-/
import proofs.«146784_j6313601925542_1_alg».proof.Proof.KComb
import proofs.«146784_j6313601925542_1_alg».proof.Proof.Spec
import proofs.«146784_j6313601925542_1_alg».proof.Proof.Consts
import proofs.«146784_j6313601925542_1_alg».proof.Proof.LibEReal
import proofs.«146784_j6313601925542_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRead

open Cert.KernelIdeal Cert.KernelIdeal.Gen Cert.Caps Cert.Consts Idealize.ShloMosaic Idealize.ShloMosaic.ValueIdx
open Idealize.ShloMosaic.ERealCoe Idealize.ShloMosaic.Keepdims

/-! ## A unit axis inserted in the middle, and a broadcast along it -/

/-- An `[a, b]` array cast to `[a, 1, b]` reads, at `(i, u, j)`, the operand at `(i, j)`: position
    `(i · 1 + u) · b + j` with `u = 0`. -/
private theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(p, q, r)`, the operand at `(p, 0, r)`. -/
private theorem broadcastTo_a1b_acb_apply {α : Type} {a b c : ℕ} (v : (⟨3, ![a, 1, b]⟩ : Shape).Idx → α)
    (h : (⟨3, ![a, 1, b]⟩ : Shape).Broadcasts ⟨3, ![a, c, b]⟩) (p : Fin a) (q : Fin c) (r : Fin b) :
    broadcastTo ⟨3, ![a, c, b]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]
  | ⟨2, _⟩ =>
    show r.val = if b = 1 then 0 else r.val
    split
    · have := r.isLt; omega
    · rfl

/-! ## The matrix unit's contraction over the 2048 input capsules -/

/-- The left operand's index at output `j` and contraction position `q`: row `j 0` … -/
private theorem lhs_v34_0 (j : S64x16.Idx) (q : dot_S64x2048_S2048x16_S64x16_1_0_0_1_n_n.contr.Idx) :
    (dot_S64x2048_S2048x16_S64x16_1_0_0_1_n_n.lhsIdx j q 0).val = (j 0).val := by
  unfold DotDims.lhsIdx
  rw [dif_neg (show ¬(0 : Fin S64x2048.rank) ∈ dot_S64x2048_S2048x16_S64x16_1_0_0_1_n_n.lhsBatch by decide), dif_pos (show (0 : Fin S64x2048.rank) ∈ dot_S64x2048_S2048x16_S64x16_1_0_0_1_n_n.lhsNonContracting by decide)]
  rfl
/-- … and column the contraction position. -/
private theorem lhs_v34_1 (j : S64x16.Idx) (q : dot_S64x2048_S2048x16_S64x16_1_0_0_1_n_n.contr.Idx) :
    (dot_S64x2048_S2048x16_S64x16_1_0_0_1_n_n.lhsIdx j q 1).val = (q ⟨0, by decide⟩).val :=
  dot_S64x2048_S2048x16_S64x16_1_0_0_1_n_n.lhsIdx_val_of_single rfl j q
/-- The right operand's index: row the contraction position … -/
private theorem rhs_v34_0 (j : S64x16.Idx) (q : dot_S64x2048_S2048x16_S64x16_1_0_0_1_n_n.contr.Idx) :
    (dot_S64x2048_S2048x16_S64x16_1_0_0_1_n_n.rhsIdx j q 0).val = (q ⟨0, by decide⟩).val :=
  dot_S64x2048_S2048x16_S64x16_1_0_0_1_n_n.rhsIdx_val_of_single rfl j q
/-- … and column `j 1`. -/
private theorem rhs_v34_1 (j : S64x16.Idx) (q : dot_S64x2048_S2048x16_S64x16_1_0_0_1_n_n.contr.Idx) :
    (dot_S64x2048_S2048x16_S64x16_1_0_0_1_n_n.rhsIdx j q 1).val = (j 1).val := by
  unfold DotDims.rhsIdx
  rw [dif_neg (show ¬(1 : Fin S2048x16.rank) ∈ dot_S64x2048_S2048x16_S64x16_1_0_0_1_n_n.rhsBatch by decide), dif_pos (show (1 : Fin S2048x16.rank) ∈ dot_S64x2048_S2048x16_S64x16_1_0_0_1_n_n.rhsNonContracting by decide)]
  rfl

/-- The product into the zero accumulator, at `(o, i)`: Σ_n lhs[o, n] · rhs[n, i], the contraction position named
    by its one coordinate. -/
private theorem v34_apply (c : FVec Ideal S64x2048 .bf16) (xs : FVec Ideal S2048x16 .bf16) (o : Fin 64) (i : Fin 16) :
    matmul dot_S64x2048_S2048x16_S64x16_1_0_0_1_n_n none c xs (constant (F := Ideal) S64x16 .f32 0x00000000#32) (ix2 o i)
      = ∑ n : Fin 2048, c (ix2 o n) * xs (ix2 n i) := by
  refine (Ideal.matmul_constant_zero_apply dot_S64x2048_S2048x16_S64x16_1_0_0_1_n_n none c xs (ix2 o i)).trans ?_
  rw [← Equiv.sum_comp (contrEquiv1 dot_S64x2048_S2048x16_S64x16_1_0_0_1_n_n 2048 rfl rfl).symm]
  refine Finset.sum_congr rfl fun n _ => ?_
  have hk := contrEquiv1_symm_val dot_S64x2048_S2048x16_S64x16_1_0_0_1_n_n 2048 rfl rfl n
  have el : dot_S64x2048_S2048x16_S64x16_1_0_0_1_n_n.lhsIdx (ix2 o i) ((contrEquiv1 dot_S64x2048_S2048x16_S64x16_1_0_0_1_n_n 2048 rfl rfl).symm n) = ix2 o n := funext fun a => Fin.ext (by
    match a with
    | ⟨0, _⟩ => exact lhs_v34_0 _ _
    | ⟨1, _⟩ => exact (lhs_v34_1 _ _).trans hk)
  have er : dot_S64x2048_S2048x16_S64x16_1_0_0_1_n_n.rhsIdx (ix2 o i) ((contrEquiv1 dot_S64x2048_S2048x16_S64x16_1_0_0_1_n_n 2048 rfl rfl).symm n) = ix2 n i := funext fun a => Fin.ext (by
    match a with
    | ⟨0, _⟩ => exact (rhs_v34_0 _ _).trans hk
    | ⟨1, _⟩ => exact rhs_v34_1 _ _)
  rw [el, er]

/-- On real operands the stage is `proj (coup C Xs) W`: s[o, d] = Σ_i (Σ_n C[n, o] · Xs[n, i]) · W[o, d, i]. -/
theorem kProj_up (C : R2 2048 64) (Xs : R2 2048 16) (W : R3 64 32 16) :
    Comb.kProj (F := Ideal) (up C) (up Xs) (up W) = up (proj (coup C Xs) W) := by
  funext j
  obtain ⟨o, d, rfl⟩ : ∃ (o : Fin 64) (d : Fin 32), j = ix2 o d := ⟨j 0, j 1, eq_ix2 j⟩
  unfold Comb.kProj
  -- the sum along the last axis: Σ_k (product) (o, d, k)
  refine (Ideal.multiReduction_add_single _ _ reduces_S64x32x16_S64x32 (.inl rfl) rfl (ix2 o d)).trans ?_
  show ∑ k : Fin 16, _ = ((∑ k : Fin 16, coup C Xs (ix2 o k) * W (ix3 o d k) : ℝ) : EReal)
  rw [coe_sum]
  refine Finset.sum_congr rfl fun k _ => ?_
  have hl : reduces_S64x32x16_S64x32.lift (ix2 o d) k = ix3 o d k := funext fun a => Fin.ext (by
    match a with
    | ⟨0, _⟩ => rfl
    | ⟨1, _⟩ => rfl
    | ⟨2, _⟩ => rfl)
  rw [hl]
  -- the product at (o, d, k): the broadcast row (o, ·, k) of the matrix product, times the weight
  show broadcastTo S64x32x16 (shapeCast S64x1x16
      (matmul dot_S64x2048_S2048x16_S64x16_1_0_0_1_n_n none
        (transpose S64x2048 [1, 0] (truncf .bf16 (up C) bitsLt_bf16_f32) transposes_S2048x64_p1_0_S64x2048) (up Xs)
        (constant (F := Ideal) S64x16 .f32 0x00000000#32))
      shapeCasts_S64x16_S64x1x16) broadcasts_S64x1x16_S64x32x16 (ix3 o d k) * up W (ix3 o d k) = _
  rw [broadcastTo_a1b_acb_apply, shapeCast_ab_a1b_apply, v34_apply, EReal.coe_mul]
  refine congrArg (· * ((W (ix3 o d k) : ℝ) : EReal)) ?_
  show _ = ((∑ n : Fin 2048, C (ix2 n o) * Xs (ix2 n k) : ℝ) : EReal)
  rw [coe_sum]
  refine Finset.sum_congr rfl fun n _ => ?_
  rw [transpose_ix2_apply, EReal.coe_mul]
  rfl

end Cert.KernelIdeal.KRead

end
-- ==== Proof.KSquash.lean ====
/-
  The squash on real rows, in the kernel: of the [64, 32] routing sums (three times) and of the [2048, 16] input
  block (once). A row's squared length is a sum of squares, so its root is the real root, and both factors of the
  divisor are positive.
-/
import proofs.«146784_j6313601925542_1_alg».proof.Proof.KComb
import proofs.«146784_j6313601925542_1_alg».proof.Proof.Spec
import proofs.«146784_j6313601925542_1_alg».proof.Proof.Consts
import proofs.«146784_j6313601925542_1_alg».proof.Proof.LibEReal
import proofs.«146784_j6313601925542_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRead

open Cert.KernelIdeal Cert.KernelIdeal.Gen Cert.Caps Cert.Consts Idealize.ShloMosaic Idealize.ShloMosaic.ValueIdx
open Idealize.ShloMosaic.ERealCoe Idealize.ShloMosaic.Keepdims

/-- Row `p` of a rank-2 index space with coordinate `k` inserted on the last axis is the index `(p, k)`. -/
private theorem lift_ix1 {a b : ℕ} (hr : (⟨2, ![a, b]⟩ : Shape).Reduces [1] ⟨1, ![a]⟩) (p : Fin a) (k : Fin b) :
    hr.lift (ix1 p) k = ix2 p k := by
  funext c
  match c with
  | ⟨0, _⟩ => exact Fin.ext rfl
  | ⟨1, _⟩ => exact Fin.ext rfl

/-- The sum over the last axis of the entrywise squares of a real array is, at row `p`, the real sum of squares
    Σ_k X(p,k)·X(p,k). -/
private theorem rowsq {a b : ℕ} (X : R2 a b) (hr : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ (mulf (up X) (up X)) 0x00000000#32 hr hφ hacc (ix1 p)
      = ((sq2 X p : ℝ) : EReal) := by
  refine (Ideal.multiReduction_add_single (mulf (up X) (up X)) _ hr hφ hacc (ix1 p)).trans ?_
  unfold sq2
  rw [coe_sum]
  refine Finset.sum_congr rfl fun k _ => ?_
  show up X (hr.lift (ix1 p) k) * up X (hr.lift (ix1 p) k) = _
  rw [lift_ix1 hr p k, EReal.coe_mul]
  rfl

/-- The squash chain on an `[a, b]` array: squares summed along each row, the row sums kept as a column, their roots,
    and the quotient of (row sum · entry) by (1/2 + row sum) · (eps + root). -/
private def sqChain {a b : ℕ} (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (s : FVec Ideal ⟨2, ![a, b]⟩ .f32) : FVec Ideal ⟨2, ![a, b]⟩ .f32 :=
  have v39 : FVec Ideal ⟨2, ![a, b]⟩ .f32 := mulf s s
  have v40 : FVec Ideal ⟨1, ![a]⟩ .f32 := multiReduction .add [1] ⟨1, ![a]⟩ v39 0x00000000#32 hr hφ hacc
  have v41 : FVec Ideal ⟨2, ![a, 1]⟩ .f32 := shapeCast ⟨2, ![a, 1]⟩ v40 hc
  have v42 : FVec Ideal ⟨2, ![a, 1]⟩ .f32 := sqrt v41
  have v43 : FVec Ideal ⟨2, ![a, b]⟩ .f32 := broadcastTo ⟨2, ![a, b]⟩ v41 hb
  have v44 : FVec Ideal ⟨2, ![a, b]⟩ .f32 := mulf v43 s
  have cst_17 : Ideal .f32 := Scalar.ofBits .f32 0x3F000000#32
  have v45 : FVec Ideal ⟨2, ![a, 1]⟩ .f32 := broadcast ⟨2, ![a, 1]⟩ cst_17
  have v46 : FVec Ideal ⟨2, ![a, 1]⟩ .f32 := addf v45 v41
  have cst_18 : Ideal .f32 := Scalar.ofBits .f32 0x322BCC77#32
  have v47 : FVec Ideal ⟨2, ![a, 1]⟩ .f32 := broadcast ⟨2, ![a, 1]⟩ cst_18
  have v48 : FVec Ideal ⟨2, ![a, 1]⟩ .f32 := addf v47 v42
  have v49 : FVec Ideal ⟨2, ![a, 1]⟩ .f32 := mulf v46 v48
  have v50 : FVec Ideal ⟨2, ![a, b]⟩ .f32 := broadcastTo ⟨2, ![a, b]⟩ v49 hb
  divf v44 v50

/-- On a real array the chain is the real squash of its rows. With T = Σ_k X(p,k)² ≥ 0, the numerator at (p,q) is
    T·X(p,q) and the divisor (1/2 + T)·(eps + √T), a product of two positive reals, hence not zero. -/
private theorem sqChain_up {a b : ℕ} (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (X : R2 a b) : sqChain hr hφ hacc hc hb (up X) = up (squash2 (1 / 2) epsR X) := by
  funext j
  obtain ⟨p, q, rfl⟩ : ∃ (p : Fin a) (q : Fin b), j = ix2 p q := ⟨j 0, j 1, eq_ix2 j⟩
  have hT : shapeCast ⟨2, ![a, 1]⟩
      (multiReduction (F := Ideal) .add [1] ⟨1, ![a]⟩ (mulf (up X) (up X)) 0x00000000#32 hr hφ hacc) hc (ix2 p (0 : Fin 1))
      = ((sq2 X p : ℝ) : EReal) :=
    (shapeCast_a_a1_apply _ hc p 0).trans (rowsq X hr hφ hacc p)
  have h0 : 0 ≤ sq2 X p := sq2_nonneg X p
  have hne : (1 / 2 + sq2 X p) * (epsR + Real.sqrt (sq2 X p)) ≠ 0 := by
    have h1 : 0 < 1 / 2 + sq2 X p := by linarith
    have h2 : 0 < epsR + Real.sqrt (sq2 X p) := by
      have := Real.sqrt_nonneg (sq2 X p); have := epsR_pos; linarith
    exact (mul_pos h1 h2).ne'
  unfold sqChain
  refine (divf_apply _ _ (ix2 p q)).trans ?_
  refine (congrArg₂ Ideal.div (mulf_apply _ _ (ix2 p q)) (broadcastTo_a1_ab_apply _ hb p q)).trans ?_
  rw [broadcastTo_a1_ab_apply _ hb p q]
  show Ideal.div (shapeCast ⟨2, ![a, 1]⟩
        (multiReduction (F := Ideal) .add [1] ⟨1, ![a]⟩ (mulf (up X) (up X)) 0x00000000#32 hr hφ hacc) hc (ix2 p (0 : Fin 1))
        * ((X (ix2 p q) : ℝ) : EReal))
      ((Ideal.ofBits .f32 0x3F000000#32 + shapeCast ⟨2, ![a, 1]⟩
        (multiReduction (F := Ideal) .add [1] ⟨1, ![a]⟩ (mulf (up X) (up X)) 0x00000000#32 hr hφ hacc) hc (ix2 p (0 : Fin 1)))
       * (Ideal.ofBits .f32 0x322BCC77#32 + Ideal.sqrt (shapeCast ⟨2, ![a, 1]⟩
        (multiReduction (F := Ideal) .add [1] ⟨1, ![a]⟩ (mulf (up X) (up X)) 0x00000000#32 hr hφ hacc) hc (ix2 p (0 : Fin 1)))))
      = _
  rw [hT, ofBits_half, ofBits_eps, sqrt_coe_of_nonneg _ h0, ← EReal.coe_mul, ← EReal.coe_add, ← EReal.coe_add,
    ← EReal.coe_mul, div_coe_coe _ _ hne]
  rfl

/-- On a real [64, 32] array the kernel's squash stage is the real squash of its rows. -/
theorem kSquash_up (S : R2 64 32) : Comb.kSquash (F := Ideal) (up S) = up (squash2 (1 / 2) epsR S) :=
  sqChain_up reduces_S64x32_S64 (.inl rfl) rfl shapeCasts_S64_S64x1 broadcasts_S64x1_S64x32 S

/-- A real [1, 2048, 16] block with its leading unit axis dropped reads, at (p, q), the block at (0, p, q). -/
private theorem dropLead_up (X3 : R3 1 2048 16) :
    shapeCast S2048x16 (up X3) shapeCasts_S1x2048x16_S2048x16 = up (blk3 X3) := by
  funext j
  obtain ⟨p, q, rfl⟩ : ∃ (p : Fin 2048) (q : Fin 16), j = ix2 p q := ⟨j 0, j 1, eq_ix2 j⟩
  exact shapeCast_1ab_ab_apply (up X3) shapeCasts_S1x2048x16_S2048x16 p q

/-- On a real [1, 2048, 16] block the body's first payload (the block's rows squashed, then narrowed to bf16, which
    at the exact values changes nothing) is the real squash of the block's rows. -/
theorem pay1_up (X3 : R3 1 2048 16) : k0_pay1 (F := Ideal) (up X3) = up (squash2 (1 / 2) epsR (blk3 X3)) := by
  funext j
  show sqChain reduces_S2048x16_S2048 (.inl rfl) rfl shapeCasts_S2048_S2048x1 broadcasts_S2048x1_S2048x16
      (shapeCast S2048x16 (up X3) shapeCasts_S1x2048x16_S2048x16) j = _
  rw [dropLead_up]
  exact congrFun (sqChain_up reduces_S2048x16_S2048 (.inl rfl) rfl shapeCasts_S2048_S2048x1 broadcasts_S2048x1_S2048x16
    (blk3 X3)) j

end Cert.KernelIdeal.KRead

end
-- ==== Proof.KAgree.lean ====
/-
  The kernel's way back on real operands: the output capsules contracted with the transposed weight over the output
  width 32, then the squashed inputs contracted with the result over the input width 16 (the matrix unit).
-/
import proofs.«146784_j6313601925542_1_alg».proof.Proof.KComb
import proofs.«146784_j6313601925542_1_alg».proof.Proof.Spec
import proofs.«146784_j6313601925542_1_alg».proof.Proof.Consts
import proofs.«146784_j6313601925542_1_alg».proof.Proof.LibEReal
import proofs.«146784_j6313601925542_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRead

open Cert.KernelIdeal Cert.KernelIdeal.Gen Cert.Caps Cert.Consts Idealize.ShloMosaic Idealize.ShloMosaic.ValueIdx
open Idealize.ShloMosaic.ERealCoe Idealize.ShloMosaic.Keepdims

/-! ## A unit axis inserted in the middle, then widened -/

/-- An `[a, b]` array cast to `[a, 1, b]` reads, at `(p, u, q)`, the operand at `(p, q)`: position
    `(p · 1 + u) · b + q` with `u = 0`. -/
private theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, c, b]` reads, at `(p, i, q)`, the operand at `(p, 0, q)`. -/
private theorem broadcastTo_a1b_acb_apply {α : Type} {a b c : ℕ} (v : (⟨3, ![a, 1, b]⟩ : Shape).Idx → α)
    (h : (⟨3, ![a, 1, b]⟩ : Shape).Broadcasts ⟨3, ![a, c, b]⟩) (p : Fin a) (i : Fin c) (q : Fin b) :
    broadcastTo ⟨3, ![a, c, b]⟩ v h (ix3 p i q) = v (ix3 p (0 : Fin 1) q) := by
  refine broadcastTo_apply v h (ix3 p i q) (ix3 p (0 : Fin 1) q) fun ax => ?_
  match ax with
  | ⟨0, _⟩ =>
    show p.val = if a = 1 then 0 else p.val
    split
    · have := p.isLt; omega
    · rfl
  | ⟨1, _⟩ =>
    show 0 = if (1 : ℕ) = 1 then 0 else i.val
    rw [if_pos rfl]
  | ⟨2, _⟩ =>
    show q.val = if b = 1 then 0 else q.val
    split
    · have := q.isLt; omega
    · rfl

/-! ## The contraction over the output width -/

/-- The first contraction at `(o, i)`: Σ_d V[o, d] · Wt[o, i, d], every factor a real. -/
private theorem back_apply (V : R2 64 32) (Wt : R3 64 16 32) (o : Fin 64) (i : Fin 16) :
    multiReduction (F := Ideal) .add [2] S64x16
        (mulf (broadcastTo S64x16x32 (shapeCast S64x1x32 (up V) shapeCasts_S64x32_S64x1x32) broadcasts_S64x1x32_S64x16x32) (up Wt))
        0x00000000#32 reduces_S64x16x32_S64x16 (.inl rfl) rfl (ix2 o i)
      = ((back V Wt (ix2 o i) : ℝ) : EReal) := by
  refine (Ideal.multiReduction_add_single _ _ reduces_S64x16x32_S64x16 _ _ (ix2 o i)).trans ?_
  show _ = ((∑ k : Fin 32, V (ix2 o k) * Wt (ix3 o i k) : ℝ) : EReal)
  rw [coe_sum]
  refine Finset.sum_congr rfl fun (k : Fin 32) _ => ?_
  have hl : reduces_S64x16x32_S64x16.lift (ix2 o i) k = ix3 o i k := funext fun a => Fin.ext (by
    match a with
    | ⟨0, _⟩ => rfl
    | ⟨1, _⟩ => rfl
    | ⟨2, _⟩ => rfl)
  rw [hl, mulf_apply, broadcastTo_a1b_acb_apply, shapeCast_ab_a1b_apply, up_apply, up_apply, EReal.coe_mul]

/-! ## The matrix unit's operand indices -/

private theorem lhs_agree_0 (j : S2048x64.Idx) (q : dot_S2048x16_S16x64_S2048x64_1_0_0_1_n_n.contr.Idx) :
    (dot_S2048x16_S16x64_S2048x64_1_0_0_1_n_n.lhsIdx j q 0).val = (j 0).val := by
  unfold DotDims.lhsIdx
  rw [dif_neg (show ¬(0 : Fin S2048x16.rank) ∈ dot_S2048x16_S16x64_S2048x64_1_0_0_1_n_n.lhsBatch by decide), dif_pos (show (0 : Fin S2048x16.rank) ∈ dot_S2048x16_S16x64_S2048x64_1_0_0_1_n_n.lhsNonContracting by decide)]
  rfl
private theorem lhs_agree_1 (j : S2048x64.Idx) (q : dot_S2048x16_S16x64_S2048x64_1_0_0_1_n_n.contr.Idx) :
    (dot_S2048x16_S16x64_S2048x64_1_0_0_1_n_n.lhsIdx j q 1).val = (q ⟨0, by decide⟩).val :=
  dot_S2048x16_S16x64_S2048x64_1_0_0_1_n_n.lhsIdx_val_of_single rfl j q
private theorem rhs_agree_0 (j : S2048x64.Idx) (q : dot_S2048x16_S16x64_S2048x64_1_0_0_1_n_n.contr.Idx) :
    (dot_S2048x16_S16x64_S2048x64_1_0_0_1_n_n.rhsIdx j q 0).val = (q ⟨0, by decide⟩).val :=
  dot_S2048x16_S16x64_S2048x64_1_0_0_1_n_n.rhsIdx_val_of_single rfl j q
private theorem rhs_agree_1 (j : S2048x64.Idx) (q : dot_S2048x16_S16x64_S2048x64_1_0_0_1_n_n.contr.Idx) :
    (dot_S2048x16_S16x64_S2048x64_1_0_0_1_n_n.rhsIdx j q 1).val = (j 1).val := by
  unfold DotDims.rhsIdx
  rw [dif_neg (show ¬(1 : Fin S16x64.rank) ∈ dot_S2048x16_S16x64_S2048x64_1_0_0_1_n_n.rhsBatch by decide), dif_pos (show (1 : Fin S16x64.rank) ∈ dot_S2048x16_S16x64_S2048x64_1_0_0_1_n_n.rhsNonContracting by decide)]
  rfl

/-- On real operands the stage is `agreeQ Xs (back V Wt)`: a[n, o] = Σ_i Xs[n, i] · (Σ_d V[o, d] · Wt[o, i, d]). -/
theorem kAgree_up (V : R2 64 32) (Xs : R2 2048 16) (Wt : R3 64 16 32) :
    Comb.kAgree (F := Ideal) (up V) (up Xs) (up Wt) = up (agreeQ Xs (back V Wt)) := by
  funext j
  obtain ⟨n, o, rfl⟩ : ∃ (n : Fin 2048) (o : Fin 64), j = ix2 n o := ⟨j 0, j 1, eq_ix2 j⟩
  unfold Comb.kAgree
  refine (Ideal.matmul_constant_zero_apply dot_S2048x16_S16x64_S2048x64_1_0_0_1_n_n none _ _ (ix2 n o)).trans ?_
  rw [← Equiv.sum_comp (contrEquiv1 dot_S2048x16_S16x64_S2048x64_1_0_0_1_n_n 16 rfl rfl).symm]
  show _ = ((∑ k : Fin 16, Xs (ix2 n k) * back V Wt (ix2 o k) : ℝ) : EReal)
  rw [coe_sum]
  refine Finset.sum_congr rfl fun k _ => ?_
  have hk := contrEquiv1_symm_val dot_S2048x16_S16x64_S2048x64_1_0_0_1_n_n 16 rfl rfl k
  have el : dot_S2048x16_S16x64_S2048x64_1_0_0_1_n_n.lhsIdx (ix2 n o) ((contrEquiv1 dot_S2048x16_S16x64_S2048x64_1_0_0_1_n_n 16 rfl rfl).symm k) = ix2 n k := funext fun a => Fin.ext (by
    match a with
    | ⟨0, _⟩ => exact lhs_agree_0 _ _
    | ⟨1, _⟩ => exact (lhs_agree_1 _ _).trans hk)
  have er : dot_S2048x16_S16x64_S2048x64_1_0_0_1_n_n.rhsIdx (ix2 n o) ((contrEquiv1 dot_S2048x16_S16x64_S2048x64_1_0_0_1_n_n 16 rfl rfl).symm k) = ix2 k o := funext fun a => Fin.ext (by
    match a with
    | ⟨0, _⟩ => exact (rhs_agree_0 _ _).trans hk
    | ⟨1, _⟩ => exact rhs_agree_1 _ _)
  rw [el, er, transpose_ix2_apply, truncf_apply, back_apply, up_apply, EReal.coe_mul]

end Cert.KernelIdeal.KRead

end
-- ==== Proof.KOut.lean ====
/-
  The kernel's stored value on real inputs: the stages composed. With the input block, the weight and the transposed
  weight real, the body stores, as a [1, 64, 32] block, the real routing result of that batch entry.
-/
import proofs.«146784_j6313601925542_1_alg».proof.Proof.KComb
import proofs.«146784_j6313601925542_1_alg».proof.Proof.Spec
import proofs.«146784_j6313601925542_1_alg».proof.Proof.Consts
import proofs.«146784_j6313601925542_1_alg».proof.Proof.LibEReal
import proofs.«146784_j6313601925542_1_alg».proof.Proof.LibKeepdims
import proofs.«146784_j6313601925542_1_alg».proof.Proof.KSoftmax
import proofs.«146784_j6313601925542_1_alg».proof.Proof.KProj
import proofs.«146784_j6313601925542_1_alg».proof.Proof.KSquash
import proofs.«146784_j6313601925542_1_alg».proof.Proof.KAgree
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KRead

open Cert.KernelIdeal Cert.KernelIdeal.Gen Cert.Caps Cert.Consts Idealize.ShloMosaic Idealize.ShloMosaic.ValueIdx
open Idealize.ShloMosaic.ERealCoe Idealize.ShloMosaic.Keepdims

/-- A whole-shape cast to the same shape changes nothing: the weight and the transposed weight as loaded. -/
theorem pay2_up (W : R3 64 32 16) : k0_pay2 (F := Ideal) (up W) = up W :=
  shapeCast_self _ _

theorem pay3_up (Wt : R3 64 16 32) : k0_pay3 (F := Ideal) (up Wt) = up Wt :=
  shapeCast_self _ _

/-- The logits start at zero. -/
theorem pay4_up : k0_pay4 (F := Ideal) = up (zero2 : R2 2048 64) := by
  funext j
  show Ideal.ofBits .f32 0x00000000#32 = ((0 : ℝ) : EReal)
  rw [Ideal.ofBits_zero_f32, EReal.coe_zero]

/-- Adding real logits entry by entry. -/
theorem addf_up (L A : R2 2048 64) :
    (addf (up L : FVec Ideal S2048x64 .f32) (up A : FVec Ideal S2048x64 .f32) : FVec Ideal S2048x64 .f32) = up (add2 L A) := by
  funext j
  show ((L j : ℝ) : EReal) + ((A j : ℝ) : EReal) = ((L j + A j : ℝ) : EReal)
  rw [EReal.coe_add]

/-- A [64, 32] array as a [1, 64, 32] block. -/
theorem lead_up (A : R2 64 32) :
    (shapeCast S1x64x32 (up A : FVec Ideal S64x32 .f32) shapeCasts_S64x32_S1x64x32 : FVec Ideal S1x64x32 .f32) = up (lead1 A) := by
  funext y
  obtain ⟨u, p, q, rfl⟩ : ∃ (u : Fin 1) (p : Fin 64) (q : Fin 32), y = ix3 u p q := ⟨y 0, y 1, y 2, eq_ix3 y⟩
  exact shapeCast_ab_1ab_apply _ _ u p q

/-- One routing pass on real operands. -/
theorem kStep_up (Xs : R2 2048 16) (W : R3 64 32 16) (L : R2 2048 64) :
    Comb.kStep (F := Ideal) (up Xs) (up W) (up L) = up (Caps.kStep (1 / 2) epsR Xs W L) := by
  unfold Comb.kStep Caps.kStep
  rw [kSoftmax_up, kProj_up, kSquash_up]

/-- The next logits on real operands. -/
theorem kNext_up (Xs : R2 2048 16) (W : R3 64 32 16) (L : R2 2048 64) :
    Comb.kNext (F := Ideal) (up Xs) (up W) (up (tr3 W)) (up L) = up (Caps.kNext (1 / 2) epsR Xs W L) := by
  unfold Comb.kNext Caps.kNext
  rw [kStep_up, kAgree_up, addf_up]

/-- THE BODY'S STORED VALUE on a real input block, weight and transposed weight: the routing result of the block's
    rows, as a [1, 64, 32] block. -/
theorem out_up (X3 : R3 1 2048 16) (W : R3 64 32 16) :
    k0_pay13 (F := Ideal) (k0_pay1 (up X3)) (k0_pay2 (up W)) (k0_pay3 (up (tr3 W)))
        (k0_pay7 (k0_pay1 (up X3)) (k0_pay3 (up (tr3 W))) (k0_pay4 (F := Ideal)) (k0_pay5 (up X3) (up W)) (k0_pay6 (up X3) (up W)))
        (k0_pay10 (k0_pay1 (up X3)) (k0_pay2 (up W)) (k0_pay3 (up (tr3 W))) (k0_pay4 (F := Ideal)) (k0_pay5 (up X3) (up W)) (k0_pay6 (up X3) (up W)))
        (k0_pay11 (k0_pay1 (up X3)) (k0_pay2 (up W)) (k0_pay3 (up (tr3 W))) (k0_pay4 (F := Ideal)) (k0_pay5 (up X3) (up W)) (k0_pay6 (up X3) (up W)))
        (k0_pay12 (k0_pay1 (up X3)) (k0_pay2 (up W)) (k0_pay3 (up (tr3 W))) (k0_pay4 (F := Ideal)) (k0_pay5 (up X3) (up W)) (k0_pay6 (up X3) (up W)))
      = up (lead1 (kOut (1 / 2) epsR (blk3 X3) W)) := by
  rw [Comb.out_eq, pay1_up, pay2_up, pay3_up, pay4_up, kNext_up, kNext_up, kStep_up, lead_up]
  rfl

end Cert.KernelIdeal.KRead

end
-- ==== Proof.KValue.lean ====
/-
  The kernel's result array on real inputs. The grid has one point per batch entry; point t reads block t of the input
  (rows t·1 … of a [32, 2048, 16] array), the whole weight and the whole transposed weight, and writes block t of the
  [32, 64, 32] result. The weight reaches the kernel through a reshape that drops its unit axis, the transposed weight
  through a transpose of that; so every block the body reads is real when the two arguments are, the body stores the
  routing result of batch entry t (`out_up`), the 32 blocks tile the result array, and the array after the run is `G`.
-/
import proofs.«146784_j6313601925542_1_alg».proof.Proof.Gen.KernelIdeal.Value
import proofs.«146784_j6313601925542_1_alg».proof.Proof.KOut
import Idealize.ShloMosaic.Lib.StableHlo.Run
import Idealize.ShloMosaic.Lib.ValueLayout

noncomputable section

namespace Cert.KernelIdeal.KValue

open Cert.KernelIdeal Cert.KernelIdeal.Gen Cert.Caps Cert.Consts Idealize.ShloMosaic Idealize.ShloMosaic.ValueIdx
open Idealize.ShloMosaic.TcCoe Idealize.SL.Sem
open Idealize.ShloMosaic.Pipeline (Dat)

section Blocks

variable (m : (ℓ : Loc nD τ sig) → Buf (Elt Ideal) ℓ)

/-! ## The arrays the region finds -/

/-- The input array is found as launched. -/
theorem found_input (c : Dev nD) (X : R3 32 2048 16) (hX : m ((c.tc : Thread nD τ).loc main_arg0) = up X) :
    (V m c main_arg0 : S32x2048x16.Idx → EReal) = up X :=
  (V_main_arg0 m c).trans hX

/-- The weight reaches the region with its unit axis dropped: entry (o, d, i) is the argument's entry (0, o, d, i). -/
theorem found_weight (c : Dev nD) (W4 : R4 1 64 32 16) (hW : m ((c.tc : Thread nD τ).loc main_arg1) = up W4) :
    (V m c main_v0 : S64x32x16.Idx → EReal) = up (w3 W4) := by
  have e : (V m c main_v0 : S64x32x16.Idx → EReal)
      = shapeCast S64x32x16 (m ((c.tc : Thread nD τ).loc main_arg1) : S1x64x32x16.Idx → EReal) Facts₀.shapeCasts_S1x64x32x16_S64x32x16 := by
    dsimp only [Gen.V, Gen.hostOps0]; after_results; rfl
  rw [e, hW]
  funext j
  obtain ⟨p, q, r, rfl⟩ : ∃ (p : Fin 64) (q : Fin 32) (r : Fin 16), j = ix3 p q r := ⟨j 0, j 1, j 2, eq_ix3 j⟩
  exact shapeCast_1abc_abc_apply _ _ p q r

/-- The transposed weight: entry (o, i, d) is the weight's entry (o, d, i). -/
theorem found_weightT (c : Dev nD) (W4 : R4 1 64 32 16) (hW : m ((c.tc : Thread nD τ).loc main_arg1) = up W4) :
    (V m c main_v1 : S64x16x32.Idx → EReal) = up (tr3 (w3 W4)) := by
  have e : (V m c main_v1 : S64x16x32.Idx → EReal)
      = transpose S64x16x32 [0, 2, 1] (V m c main_v0 : S64x32x16.Idx → EReal) Facts₀.transposes_S64x32x16_S64x16x32_0_2_1 := by
    dsimp only [Gen.V, Gen.hostOps0]; after_results
  rw [e, found_weight m c W4 hW]
  funext j
  obtain ⟨p, q, r, rfl⟩ : ∃ (p : Fin 64) (q : Fin 16) (r : Fin 32), j = ix3 p q r := ⟨j 0, j 1, j 2, eq_ix3 j⟩
  exact transpose_ix3_021_apply _ _ p q r

/-! ## The grid's index maps -/

/-- The printed index maps, decided over the 32 points: the input's and the result's block index is (t, 0, 0), the
    weight's and the transposed weight's is (0, 0, 0) at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch entry a grid point works on: the point's number, as an index of the batch axis. -/
def entry (t : Fin cfg0.N) : Fin 32 := Fin.cast N_0 t

theorem entry_val (t : Fin cfg0.N) : (entry t).val = t.val := rfl

/-! ## The blocks the body reads -/

/-- Point t's input block is batch entry t of the input, as a [1, 2048, 16] block: the block's coordinate on the
    batch axis is t · 1 + 0, on the other two axes 0 · size + the coordinate inside the block. -/
theorem block_input (c : Dev nD) (X : R3 32 2048 16) (hX : m ((c.tc : Thread nD τ).loc main_arg0) = up X)
    (t : Fin cfg0.N) : (iblk m c 0 t : S1x2048x16.Idx → EReal) = up (xblk X (entry t)) := by
  obtain ⟨e0, e1, e2, -⟩ := idx_facts t
  funext y
  unfold Gen.iblk
  show (V m c main_arg0 : S32x2048x16.Idx → EReal) (((cfg0.win 0).blk t).view.emb y) = _
  rw [found_input m c X hX]
  refine congrArg (fun i => ((X i : ℝ) : EReal)) ?_
  funext a; apply Fin.ext
  match a with
  | ⟨0, _⟩ =>
    show win0_0.index t (0 : Fin 3) * 1 + 1 * (y 0).val = t.val
    have hy : (y 0).val < 1 := (y 0).isLt
    omega
  | ⟨1, _⟩ =>
    show win0_0.index t (1 : Fin 3) * 2048 + 1 * (y 1).val = (y 1).val
    omega
  | ⟨2, _⟩ =>
    show win0_0.index t (2 : Fin 3) * 16 + 1 * (y 2).val = (y 2).val
    omega

/-- Every point's weight block is the whole weight. -/
theorem block_weight (c : Dev nD) (W4 : R4 1 64 32 16) (hW : m ((c.tc : Thread nD τ).loc main_arg1) = up W4)
    (t : Fin cfg0.N) : (iblk m c 1 t : S64x32x16.Idx → EReal) = up (w3 W4) := by
  obtain ⟨-, -, -, e0, e1, e2, -⟩ := idx_facts t
  funext y
  unfold Gen.iblk
  show (V m c main_v0 : S64x32x16.Idx → EReal) (((cfg0.win 1).blk t).view.emb y) = _
  rw [found_weight m c W4 hW]
  refine congrArg (up (w3 W4)) ?_
  funext a; apply Fin.ext
  match a with
  | ⟨0, _⟩ =>
    show win0_1.index t (0 : Fin 3) * 64 + 1 * (y 0).val = (y 0).val
    omega
  | ⟨1, _⟩ =>
    show win0_1.index t (1 : Fin 3) * 32 + 1 * (y 1).val = (y 1).val
    omega
  | ⟨2, _⟩ =>
    show win0_1.index t (2 : Fin 3) * 16 + 1 * (y 2).val = (y 2).val
    omega

/-- Every point's transposed-weight block is the whole transposed weight. -/
theorem block_weightT (c : Dev nD) (W4 : R4 1 64 32 16) (hW : m ((c.tc : Thread nD τ).loc main_arg1) = up W4)
    (t : Fin cfg0.N) : (iblk m c 2 t : S64x16x32.Idx → EReal) = up (tr3 (w3 W4)) := by
  obtain ⟨-, -, -, -, -, -, e0, e1, e2, -⟩ := idx_facts t
  funext y
  unfold Gen.iblk
  show (V m c main_v1 : S64x16x32.Idx → EReal) (((cfg0.win 2).blk t).view.emb y) = _
  rw [found_weightT m c W4 hW]
  refine congrArg (up (tr3 (w3 W4))) ?_
  funext a; apply Fin.ext
  match a with
  | ⟨0, _⟩ =>
    show win0_2.index t (0 : Fin 3) * 64 + 1 * (y 0).val = (y 0).val
    omega
  | ⟨1, _⟩ =>
    show win0_2.index t (1 : Fin 3) * 16 + 1 * (y 1).val = (y 1).val
    omega
  | ⟨2, _⟩ =>
    show win0_2.index t (2 : Fin 3) * 32 + 1 * (y 2).val = (y 2).val
    omega

/-! ## What the body stores -/

theorem zero_offsets : (![0, 0, 0] : Fin 3 → Nat) = fun _ => 0 := funext fun a => by fin_cases a <;> rfl

/-- On a real input block, weight and transposed weight, the body's one store — a whole-block store over whole-block
    loads — leaves the routing result of the block's rows, as a [1, 64, 32] block. -/
theorem stored_real (X3 : R3 1 2048 16) (W : R3 64 32 16) :
    out0_3 (F := Ideal) (up X3) (up W) (up (tr3 W)) = up (lead1 (kOut (1 / 2) epsR (blk3 X3) W)) := by
  unfold Gen.out0_3
  rw [View.canon_unit_zero zero_offsets]
  simp only [View.ld_unit_zero (S := S1x2048x16) zero_offsets, View.ld_unit_zero (S := S64x32x16) zero_offsets,
    View.ld_unit_zero (S := S64x16x32) zero_offsets]
  exact KRead.out_up X3 W

/-- The routing result of batch entry b, as a block, read at y, is G at (b, y 1, y 2). -/
theorem G_block (X : R3 32 2048 16) (W4 : R4 1 64 32 16) (b : Fin 32) (y : S1x64x32.Idx) (i : S32x64x32.Idx)
    (hi : i = ix3 b (y 1) (y 2)) :
    up (lead1 (kOut (1 / 2) epsR (blk3 (xblk X b)) (w3 W4))) y = up (G (1 / 2) epsR X W4) i := by
  subst hi; rfl

/-! ## What each point writes back -/

/-- Point t writes back block t of G: the body's result on batch entry t of the input and the whole weight, whose
    entry (0, o, d) sits at (t · 1 + 0, 0 · 64 + o, 0 · 32 + d) of the result array. -/
theorem flushed_eq (c : Dev nD) (X : R3 32 2048 16) (W4 : R4 1 64 32 16)
    (hX : m ((c.tc : Thread nD τ).loc main_arg0) = up X) (hW : m ((c.tc : Thread nD τ).loc main_arg1) = up W4)
    (t : Fin cfg0.N) :
    (dats m 0 c).flushed 3 t = ((cfg0.win 3).blk t).view.read (Elt Ideal) (up (G (1 / 2) epsR X W4)) := by
  rw [Value.flushed3, block_input m c X hX t, block_weight m c W4 hW t, block_weightT m c W4 hW t, stored_real]
  obtain ⟨-, -, -, -, -, -, -, -, -, e0, e1, e2⟩ := idx_facts t
  funext y
  show up (lead1 (kOut (1 / 2) epsR (blk3 (xblk X (entry t))) (w3 W4))) y
    = up (G (1 / 2) epsR X W4) (((cfg0.win 3).blk t).view.emb y)
  refine G_block X W4 (entry t) y _ ?_
  funext a; apply Fin.ext
  match a with
  | ⟨0, _⟩ =>
    show win0_3.index t (0 : Fin 3) * 1 + 1 * (y 0).val = t.val
    have hy : (y 0).val < 1 := (y 0).isLt
    omega
  | ⟨1, _⟩ =>
    show win0_3.index t (1 : Fin 3) * 64 + 1 * (y 1).val = (y 1).val
    omega
  | ⟨2, _⟩ =>
    show win0_3.index t (2 : Fin 3) * 32 + 1 * (y 2).val = (y 2).val
    omega

/-! ## The blocks tile the result array -/

/-- An index of the result array is in point t's block iff each coordinate is in the block's range on its axis. -/
theorem mem_blk (t : Fin cfg0.N) (i : S32x64x32.Idx) :
    i ∈ ((cfg0.win 3).blk t).view.set ↔ ∀ a : Fin 3, win0_3.index t a * S1x64x32.size a ≤ (i a).val
      ∧ (i a).val < win0_3.index t a * S1x64x32.size a + S1x64x32.size a := by
  show i ∈ ((View.whole main_v2).slice (win0_3.rect t)).set ↔ _
  rw [View.set_slice_whole, Rect.mem_set_unit]
  exact Iff.rfl

/-- Every index (b, o, d) of the result array is in the block of the point numbered b, which writes back. -/
theorem cover (i : S32x64x32.Idx) :
    ∃ t : Fin cfg0.N, (cfg0.win 3).flush t = true ∧ i ∈ ((cfg0.win 3).blk t).view.set := by
  have h0 : (i 0).val < 32 := (i 0).isLt
  have h1 : (i 1).val < 64 := (i 1).isLt
  have h2 : (i 2).val < 32 := (i 2).isLt
  obtain ⟨t, ht⟩ : ∃ t : Fin cfg0.N, t.val = (i 0).val := ⟨Fin.cast N_0.symm ⟨(i 0).val, h0⟩, rfl⟩
  obtain ⟨-, -, -, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 64 ≤ (i 1).val ∧ (i 1).val < win0_3.index t (1 : Fin 3) * 64 + 64
    omega
  | ⟨2, _⟩ =>
    show win0_3.index t (2 : Fin 3) * 32 ≤ (i 2).val ∧ (i 2).val < win0_3.index t (2 : Fin 3) * 32 + 32
    omega

/-- THE RESULT ARRAY after the run is G of the two arguments: every point writes back its block of G, and the
    blocks cover the array. -/
theorem final (c : Dev nD) (X : R3 32 2048 16) (W4 : R4 1 64 32 16)
    (hX : m ((c.tc : Thread nD τ).loc main_arg0) = up X) (hW : m ((c.tc : Thread nD τ).loc main_arg1) = up W4) :
    (dats m 0 c).arrAt 3 cfg0.N = up (G (1 / 2) epsR X W4) :=
  (dats m 0 c).arrAt_eq_of_cover 3 (up (G (1 / 2) epsR X W4)) (fun t _ => flushed_eq m c X W4 hX hW t) cover

end Blocks

/-- THE KERNEL'S RUN on real arguments: every weakly fair execution terminates with the result array at `G` of the
    two arguments and the arguments unchanged. -/
theorem run_value (m : (ℓ : Loc nD τ sig) → Buf (Elt Ideal) ℓ) (ρ : Dev nD → PrngReg)
    (X : Dev nD → R3 32 2048 16) (W4 : Dev nD → R4 1 64 32 16)
    (hX : ∀ c : Dev nD, m ((c.tc : Thread nD τ).loc main_arg0) = up (X c))
    (hW : ∀ c : Dev nD, m ((c.tc : Thread nD τ).loc main_arg1) = up (W4 c)) :
    θ_run (defs (F := Ideal)) (onTc (τ := τ) (main (F := Ideal))) ⟨m, fun _ => 0, ρ⟩ fun r => ∀ c : Dev nD,
      r.2.mem ((c.tc : Thread nD τ).loc main_v2) = up (G (1 / 2) epsR (X c) (W4 c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c (X c) (W4 c) (hX c) (hW c)), (h c).2⟩)
    (Value.run_blocks m ρ)

end Cert.KernelIdeal.KValue

end
-- ==== Proof.RComb.lean ====
/-
  The reference's routing, stage by stage. Its three passes repeat four stages on fresh names: the row softmax of the
  logits; the sum over the input capsules of the predictions weighted by the coupling coefficients; the squash of the
  resulting rows; and the agreements of the predictions with the output capsules. Each stage is written here once, as
  the operations the reference applies, and the reference's result is their composition (`ref_eq`).
-/
import proofs.«146784_j6313601925542_1_alg».proof.Proof.RefRead

noncomputable section

namespace Cert.ReferenceIdeal.Comb

open Cert.ReferenceIdeal Cert.ReferenceIdeal.Gen Cert.ReferenceIdeal.ReadP Idealize.ShloMosaic

variable {F : FTy → Type} [FloatOps F]

/-- The row softmax of the logits. -/
def rSoftmax (l : FVec F S32x2048x64 .f32) : FVec F S32x2048x64 .f32 :=
  have v14 : FVec F S32x2048 .f32 := Host.reduce FloatOps.maximumf l (constant S_ .f32 0xFF800000#32) reducesTo_S32x2048x64_S32x2048_d2 h_S_
  have v15 : FVec F S32x2048 .f32 := broadcastInDim S32x2048 ![] bcast_S_S32x2048 (constant S_ .f32 0xFF800000#32)
  have v16 : FVec F S32x2048 .f32 := maximumf v15 v14
  have v17 : FVec F S32x2048x1 .f32 := broadcastInDim S32x2048x1 ![0, 1] bcast_S32x2048_S32x2048x1_0_1 v16
  have v18 : FVec F S32x2048x64 .f32 := broadcastInDim S32x2048x64 ![0, 1, 2] bcast_S32x2048x1_S32x2048x64_0_1_2 v17
  have v19 : FVec F S32x2048x64 .f32 := subf l v18
  have v20 : FVec F S32x2048x64 .f32 := Host.exp v19
  have v21 : FVec F S32x2048 .f32 := Host.reduceAdd v20 (constant S_ .f32 0x00000000#32) reducesTo_S32x2048x64_S32x2048_d2 h_S_
  have v22 : FVec F S32x2048x1 .f32 := broadcastInDim S32x2048x1 ![0, 1] bcast_S32x2048_S32x2048x1_0_1 v21
  have v23 : FVec F S32x2048x64 .f32 := broadcastInDim S32x2048x64 ![0, 1, 2] bcast_S32x2048x1_S32x2048x64_0_1_2 v22
  Host.divf v20 v23

/-- The predictions weighted by the coupling coefficients and summed over the input capsules, the summed axis kept. -/
def rWsum (c : FVec F S32x2048x64 .f32) (u : FVec F S32x2048x64x32 .f32) : FVec F S32x1x64x32 .f32 :=
  have v25 : FVec F S32x2048x64x1 .f32 := broadcastInDim S32x2048x64x1 ![0, 1, 2] bcast_S32x2048x64_S32x2048x64x1_0_1_2 c
  have v26 : FVec F S32x2048x64x32 .f32 := broadcastInDim S32x2048x64x32 ![0, 1, 2, 3] bcast_S32x2048x64x1_S32x2048x64x32_0_1_2_3 v25
  have v27 : FVec F S32x2048x64x32 .f32 := mulf v26 u
  have v28 : FVec F S32x64x32 .f32 := Host.reduceAdd v27 (constant S_ .f32 0x00000000#32) reducesTo_S32x2048x64x32_S32x64x32_d1 h_S_
  broadcastInDim S32x1x64x32 ![0, 2, 3] bcast_S32x64x32_S32x1x64x32_0_2_3 v28

/-- The squash of the rows (last axis) of a [32, 1, 64, 32] array. -/
def rSquash4 (s : FVec F S32x1x64x32 .f32) : FVec F S32x1x64x32 .f32 :=
  have c0 : FVec F S32x1x64x32 .f32 := mulf s s
  have c1 : FVec F S32x1x64 .f32 := Host.reduceAdd c0 (constant S_ .f32 0x00000000#32) reducesTo_S32x1x64x32_S32x1x64_d3 h_S_
  have c2 : FVec F S32x1x64x1 .f32 := broadcastInDim S32x1x64x1 ![0, 1, 2] bcast_S32x1x64_S32x1x64x1_0_1_2 c1
  have v30 : FVec F S32x1x64x1 .f32 := Host.sqrt c2
  have v31 : FVec F S32x1x64x1 .f32 := mulf v30 v30
  have v32 : FVec F S32x1x64x32 .f32 := broadcastInDim S32x1x64x32 ![0, 1, 2, 3] bcast_S32x1x64x1_S32x1x64x32_0_1_2_3 v31
  have v33 : FVec F S32x1x64x32 .f32 := mulf v32 s
  have v34 : FVec F S32x1x64x1 .f32 := broadcastInDim S32x1x64x1 ![] bcast_S_S32x1x64x1 (constant S_ .f32 0x3F000000#32)
  have v35 : FVec F S32x1x64x1 .f32 := addf v34 v31
  have v36 : FVec F S32x1x64x1 .f32 := broadcastInDim S32x1x64x1 ![] bcast_S_S32x1x64x1 (constant S_ .f32 0x322BCC77#32)
  have v37 : FVec F S32x1x64x1 .f32 := addf v36 v30
  have v38 : FVec F S32x1x64x1 .f32 := mulf v35 v37
  have v39 : FVec F S32x1x64x32 .f32 := broadcastInDim S32x1x64x32 ![0, 1, 2, 3] bcast_S32x1x64x1_S32x1x64x32_0_1_2_3 v38
  Host.divf v33 v39

/-- The agreements of the predictions with the output capsules: their product summed over the output width. -/
def rAgree (u : FVec F S32x2048x64x32 .f32) (v : FVec F S32x1x64x32 .f32) : FVec F S32x2048x64 .f32 :=
  have v41 : FVec F S32x2048x64x32 .f32 := broadcastInDim S32x2048x64x32 ![0, 1, 2, 3] bcast_S32x1x64x32_S32x2048x64x32_0_1_2_3 v
  have v42 : FVec F S32x2048x64x32 .f32 := mulf u v41
  Host.reduceAdd v42 (constant S_ .f32 0x00000000#32) reducesTo_S32x2048x64x32_S32x2048x64_d3 h_S_

/-- One routing pass: the output capsules from the logits. -/
def rStep (u : FVec F S32x2048x64x32 .f32) (l : FVec F S32x2048x64 .f32) : FVec F S32x1x64x32 .f32 :=
  rSquash4 (rWsum (rSoftmax l) u)

/-- The next logits. -/
def rNext (u : FVec F S32x2048x64x32 .f32) (l : FVec F S32x2048x64 .f32) : FVec F S32x2048x64 .f32 :=
  addf l (rAgree u (rStep u l))

variable (x0 : (⟨S32x2048x16, .f32⟩ : BufTy).Contents (Elt F)) (x1 : (⟨S1x64x32x16, .f32⟩ : BufTy).Contents (Elt F))

theorem v40_eq : val_main_v40 (F := F) x0 x1 = rStep (val_main_v12 (F := F) x0 x1) (val_main_v13 (F := F)) := rfl
theorem v44_eq : val_main_v44 (F := F) x0 x1 = rNext (val_main_v12 (F := F) x0 x1) (val_main_v13 (F := F)) := rfl
theorem v71_eq : val_main_v71 (F := F) x0 x1 = rStep (val_main_v12 (F := F) x0 x1) (val_main_v44 (F := F) x0 x1) := rfl
theorem v75_eq : val_main_v75 (F := F) x0 x1 = rNext (val_main_v12 (F := F) x0 x1) (val_main_v44 (F := F) x0 x1) := rfl
theorem v102_eq : val_main_v102 (F := F) x0 x1 = rStep (val_main_v12 (F := F) x0 x1) (val_main_v75 (F := F) x0 x1) := rfl

/-- The reference's result: three passes from zero logits over the predictions, the last pass's output capsules with
    the kept unit axis dropped. -/
theorem ref_eq : val_main_v103 (F := F) x0 x1
    = shapeCast S32x64x32
        (rStep (val_main_v12 (F := F) x0 x1)
          (rNext (val_main_v12 (F := F) x0 x1) (rNext (val_main_v12 (F := F) x0 x1) (val_main_v13 (F := F)))))
        shapeCasts_S32x1x64x32_S32x64x32 := by
  unfold val_main_v103
  rw [v102_eq, v75_eq, v44_eq]

end Cert.ReferenceIdeal.Comb

end
-- ==== Proof.RSoftmax.lean ====
/-
  The reference's softmax stage on real logits [32, 2048, 64]: every entry of the result is the real softmax of its
  row (last axis). The row maximum it subtracts is a real number, and a softmax does not depend on what is subtracted
  from every logit of a row.
-/
import proofs.«146784_j6313601925542_1_alg».proof.Proof.RComb
import proofs.«146784_j6313601925542_1_alg».proof.Proof.Spec
import proofs.«146784_j6313601925542_1_alg».proof.Proof.Consts
import proofs.«146784_j6313601925542_1_alg».proof.Proof.LibEReal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RRead

open Cert.ReferenceIdeal Cert.ReferenceIdeal.Gen Cert.ReferenceIdeal.ReadP Cert.Caps Cert.Consts
open Idealize.ShloMosaic Idealize.ShloMosaic.ValueIdx Idealize.ShloMosaic.ERealCoe

/-! ## The stage's intermediate arrays, named -/

/-- A [32, 2048] array given a trailing unit axis and repeated along it 64 times. -/
private def keep (y : FVec Ideal S32x2048 .f32) : FVec Ideal S32x2048x64 .f32 :=
  broadcastInDim S32x2048x64 ![0, 1, 2] bcast_S32x2048x1_S32x2048x64_0_1_2
    (broadcastInDim S32x2048x1 ![0, 1] bcast_S32x2048_S32x2048x1_0_1 y)

/-- The row maxima: the larger of -∞ and the maximum, folded from -∞, of the 64 entries of each row. -/
private def rowMax (l : FVec Ideal S32x2048x64 .f32) : FVec Ideal S32x2048 .f32 :=
  maximumf (broadcastInDim S32x2048 ![] bcast_S_S32x2048 (constant S_ .f32 0xFF800000#32))
    (Host.reduce FloatOps.maximumf l (constant S_ .f32 0xFF800000#32) reducesTo_S32x2048x64_S32x2048_d2 h_S_)

/-- The exponentials of the logits less their row's maximum. -/
private def expArr (l : FVec Ideal S32x2048x64 .f32) : FVec Ideal S32x2048x64 .f32 :=
  Host.exp (subf l (keep (rowMax l)))

/-- The row sums of those exponentials. -/
private def rowSum (l : FVec Ideal S32x2048x64 .f32) : FVec Ideal S32x2048 .f32 :=
  Host.reduceAdd (expArr l) (constant S_ .f32 0x00000000#32) reducesTo_S32x2048x64_S32x2048_d2 h_S_

/- A reduction's value at (b, n) is defined over all 32 · 2048 · 64 indices of the array, filtered to those of row (b, n);
   below it is always taken in its equal form over the row's 64 entries. -/
attribute [local irreducible] Host.reduce Ideal.hostReduceAdd

/-- The stage is the exponentials divided by their row sums. -/
private theorem rSoftmax_eq (l : FVec Ideal S32x2048x64 .f32) :
    Comb.rSoftmax (F := Ideal) l = Host.divf (expArr l) (keep (rowSum l)) := rfl

/-- The row (b, n) of a [32, 2048, 64] array: the index (b, n) with k inserted on the last axis is (b, n, k). -/
private theorem lift_row (h : S32x2048x64.Reduces [2] S32x2048) (b : Fin 32) (n : Fin 2048) (k : Fin 64) :
    h.lift (ix2 b n) k = ix3 b n k :=
  funext fun a => Fin.ext (by match a with | ⟨0, _⟩ => rfl | ⟨1, _⟩ => rfl | ⟨2, _⟩ => rfl)

/-- The repeated array at (b, n, o) is the array at (b, n). -/
private theorem keep_apply (y : FVec Ideal S32x2048 .f32) (b : Fin 32) (n : Fin 2048) (o : Fin 64) :
    keep y (ix3 b n o) = y (ix2 b n) := by
  unfold keep
  refine (broadcastInDim_apply _ bcast_S32x2048x1_S32x2048x64_0_1_2 _ (ix3 b n o) (ix3 b n (0 : Fin 1)) (fun a => match a with
    | ⟨0, _⟩ => by show b.val = if (32 : Nat) = 1 then 0 else b.val; rw [if_neg (by decide)]
    | ⟨1, _⟩ => by show n.val = if (2048 : Nat) = 1 then 0 else n.val; rw [if_neg (by decide)]
    | ⟨2, _⟩ => by show 0 = if (1 : Nat) = 1 then 0 else o.val; rw [if_pos rfl])).trans ?_
  exact broadcastInDim_apply _ bcast_S32x2048_S32x2048x1_0_1 y (ix3 b n (0 : Fin 1)) (ix2 b n) (fun a => match a with
    | ⟨0, _⟩ => by show b.val = if (32 : Nat) = 1 then 0 else b.val; rw [if_neg (by decide)]
    | ⟨1, _⟩ => by show n.val = if (2048 : Nat) = 1 then 0 else n.val; rw [if_neg (by decide)])

/-- The maximum, folded from -∞, over row (b, n) of real logits is the fold over the row's 64 real entries. -/
private theorem hostMax_up (L : R3 32 2048 64) (b : Fin 32) (n : Fin 2048) :
    Host.reduce (FloatOps.maximumf (F := Ideal) (φ := .f32)) (up L) (constant (F := Ideal) S_ .f32 0xFF800000#32)
        reducesTo_S32x2048x64_S32x2048_d2 h_S_ (ix2 b n)
      = (Finset.univ : Finset (Fin 64)).fold max (⊥ : EReal) (fun k => ((L (ix3 b n k) : ℝ) : EReal)) := by
  have h : S32x2048x64.Reduces [2] S32x2048 := by decide
  refine (Host.reduce_eq_fold_single (FloatOps.maximumf (F := Ideal) (φ := .f32)) (up L) _
    reducesTo_S32x2048x64_S32x2048_d2 h h_S_ (ix2 b n)).trans ?_
  rw [constant_apply, ofBits_neg_inf]
  exact Finset.fold_congr fun k _ => congrArg (up L) (lift_row h b n k)

/-- On real logits every row maximum is a real number: a row has 64 entries, all real. -/
private theorem rowMax_up (L : R3 32 2048 64) (b : Fin 32) (n : Fin 2048) :
    ∃ M : ℝ, rowMax (up L) (ix2 b n) = (M : EReal) := by
  obtain ⟨M, hM⟩ := max_bot_fold_max_coe (b := 64) (by decide) (fun k => L (ix3 b n k))
  refine ⟨M, ?_⟩
  unfold rowMax
  rw [maximumf_apply, hostMax_up, broadcastInDim_apply _ bcast_S_S32x2048 _ (ix2 b n) ix0 (fun a => a.elim0),
    constant_apply, ofBits_neg_inf]
  exact hM

/-- An exponential of a difference, and a quotient, read at an index. -/
private theorem exp_sub_apply (x y : FVec Ideal S32x2048x64 .f32) (i : S32x2048x64.Idx) :
    Host.exp (subf x y) i = Ideal.exp (x i - y i) := rfl
private theorem div_apply (x y : FVec Ideal S32x2048x64 .f32) (i : S32x2048x64.Idx) :
    Host.divf x y i = Ideal.div (x i) (y i) := rfl

/-- The real row softmax of a batched array at (b, n, o). -/
private theorem softmax3_apply (L : R3 32 2048 64) (b : Fin 32) (n : Fin 2048) (o : Fin 64) :
    softmax3 L (ix3 b n o) = Real.exp (L (ix3 b n o)) / ∑ k : Fin 64, Real.exp (L (ix3 b n k)) := rfl

/-- The exponentials on real logits, the row's maximum being the real M. -/
private theorem expArr_up (L : R3 32 2048 64) (b : Fin 32) (n : Fin 2048) (M : ℝ) (hM : rowMax (up L) (ix2 b n) = (M : EReal))
    (k : Fin 64) : expArr (up L) (ix3 b n k) = ((Real.exp (L (ix3 b n k) - M) : ℝ) : EReal) := by
  unfold expArr
  rw [exp_sub_apply, keep_apply, hM, up_apply, ← EReal.coe_sub, Ideal.exp_coe]

/-- Their row sum is the real sum of 64 real exponentials (the sum starts from zero). -/
private theorem rowSum_up (L : R3 32 2048 64) (b : Fin 32) (n : Fin 2048) (M : ℝ) (hM : rowMax (up L) (ix2 b n) = (M : EReal)) :
    rowSum (up L) (ix2 b n) = ((∑ k : Fin 64, Real.exp (L (ix3 b n k) - M) : ℝ) : EReal) := by
  have h : S32x2048x64.Reduces [2] S32x2048 := by decide
  unfold rowSum
  simp only [Host.reduceAdd, Ideal.hostReduceAdd_def]
  rw [Ideal.hostReduceAdd_single reducesTo_S32x2048x64_S32x2048_d2 h, coe_sum, constant_apply, Ideal.ofBits_zero_f32, zero_add]
  refine Finset.sum_congr rfl fun k _ => ?_
  exact (congrArg (expArr (up L)) (lift_row h b n k)).trans (expArr_up L b n M hM k)

/-- On real logits the reference's softmax stage is the real row softmax of every batch entry. -/
theorem rSoftmax_up (L : R3 32 2048 64) : Comb.rSoftmax (F := Ideal) (up L) = up (softmax3 L) := by
  funext j
  obtain ⟨b, n, o, rfl⟩ : ∃ (b : Fin 32) (n : Fin 2048) (o : Fin 64), j = ix3 b n o := ⟨j 0, j 1, j 2, eq_ix3 j⟩
  obtain ⟨M, hM⟩ := rowMax_up L b n
  -- the divisor is a sum of 64 exponentials, so it is positive
  rw [rSoftmax_eq, div_apply, keep_apply, rowSum_up L b n M hM, expArr_up L b n M hM o, up_apply, softmax3_apply,
    div_coe_coe _ _ (sum_exp_pos (b := 64) (by decide) (fun k => L (ix3 b n k) - M)).ne']
  exact congrArg Real.toEReal (exp_sub_div_sum M (fun k => L (ix3 b n k)) o)

end Cert.ReferenceIdeal.RRead

end
-- ==== Proof.RWsum.lean ====
/-
  The reference's two sums over the predictions on real operands: weighted by the coupling coefficients and summed
  over the 2048 input capsules (the summed axis kept as a unit axis), and multiplied by the output capsules and
  summed over the output width 32.
-/
import proofs.«146784_j6313601925542_1_alg».proof.Proof.RComb
import proofs.«146784_j6313601925542_1_alg».proof.Proof.Spec
import proofs.«146784_j6313601925542_1_alg».proof.Proof.Consts
import proofs.«146784_j6313601925542_1_alg».proof.Proof.LibEReal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RRead

open Cert.ReferenceIdeal Cert.ReferenceIdeal.Gen Cert.ReferenceIdeal.ReadP Cert.Caps Cert.Consts
open Idealize.ShloMosaic Idealize.ShloMosaic.ValueIdx Idealize.ShloMosaic.ERealCoe

/-- The host's sum over axis 1 (the 2048 input capsules) of a [32, 2048, 64, 32] array, started from the zero pattern,
    read at (b, o, d): the sum over n of the array at (b, n, o, d). -/
private theorem reduceAdd_d1_apply (y : FVec Ideal S32x2048x64x32 .f32) (b : Fin 32) (o : Fin 64) (d : Fin 32) :
    Host.reduceAdd (F := Ideal) y (constant (F := Ideal) S_ .f32 0x00000000#32)
        reducesTo_S32x2048x64x32_S32x64x32_d1 h_S_ (ix3 b o d)
      = ∑ n : Fin 2048, y (ix4 b n o d) := by
  simp only [Host.reduceAdd, Ideal.hostReduceAdd_def]
  rw [Ideal.hostReduceAdd_single reducesTo_S32x2048x64x32_S32x64x32_d1 (by decide)]
  refine (congrArg (· + _) (show constant (F := Ideal) S_ .f32 0x00000000#32 (Shape.Idx.first h_S_) = 0 from
    Ideal.ofBits_zero_f32)).trans ?_
  rw [zero_add]
  refine Finset.sum_congr rfl fun n _ => ?_
  exact congrArg y (funext fun a => Fin.ext (by
    match a with | ⟨0, _⟩ => rfl | ⟨1, _⟩ => rfl | ⟨2, _⟩ => rfl | ⟨3, _⟩ => rfl))

/-- The host's sum over axis 3 (the output width 32) of a [32, 2048, 64, 32] array, started from the zero pattern,
    read at (b, n, o): the sum over d of the array at (b, n, o, d). -/
private theorem reduceAdd_d3_apply (y : FVec Ideal S32x2048x64x32 .f32) (b : Fin 32) (n : Fin 2048) (o : Fin 64) :
    Host.reduceAdd (F := Ideal) y (constant (F := Ideal) S_ .f32 0x00000000#32)
        reducesTo_S32x2048x64x32_S32x2048x64_d3 h_S_ (ix3 b n o)
      = ∑ d : Fin 32, y (ix4 b n o d) := by
  simp only [Host.reduceAdd, Ideal.hostReduceAdd_def]
  rw [Ideal.hostReduceAdd_single reducesTo_S32x2048x64x32_S32x2048x64_d3 (by decide)]
  refine (congrArg (· + _) (show constant (F := Ideal) S_ .f32 0x00000000#32 (Shape.Idx.first h_S_) = 0 from
    Ideal.ofBits_zero_f32)).trans ?_
  rw [zero_add]
  refine Finset.sum_congr rfl fun d _ => ?_
  exact congrArg y (funext fun a => Fin.ext (by
    match a with | ⟨0, _⟩ => rfl | ⟨1, _⟩ => rfl | ⟨2, _⟩ => rfl | ⟨3, _⟩ => rfl))

/-- A [32, 2048, 64] array broadcast along a new trailing unit axis and then along it to width 32, read at
    (b, n, o, d): the array at (b, n, o). -/
private theorem bcast_c_apply (c : FVec Ideal S32x2048x64 .f32) (b : Fin 32) (n : Fin 2048) (o : Fin 64) (d : Fin 32) :
    broadcastInDim S32x2048x64x32 ![0, 1, 2, 3] bcast_S32x2048x64x1_S32x2048x64x32_0_1_2_3
        (broadcastInDim S32x2048x64x1 ![0, 1, 2] bcast_S32x2048x64_S32x2048x64x1_0_1_2 c) (ix4 b n o d)
      = c (ix3 b n o) := by
  refine (broadcastInDim_apply _ bcast_S32x2048x64x1_S32x2048x64x32_0_1_2_3 _ (ix4 b n o d) (ix4 b n o (0 : Fin 1))
    (fun a => match a with
    | ⟨0, _⟩ => by show b.val = if (32 : Nat) = 1 then 0 else b.val; rw [if_neg (by decide)]
    | ⟨1, _⟩ => by show n.val = if (2048 : Nat) = 1 then 0 else n.val; rw [if_neg (by decide)]
    | ⟨2, _⟩ => by show o.val = if (64 : Nat) = 1 then 0 else o.val; rw [if_neg (by decide)]
    | ⟨3, _⟩ => by show 0 = if (1 : Nat) = 1 then 0 else d.val; rw [if_pos rfl])).trans ?_
  exact broadcastInDim_apply _ bcast_S32x2048x64_S32x2048x64x1_0_1_2 c (ix4 b n o (0 : Fin 1)) (ix3 b n o)
    (fun a => match a with
    | ⟨0, _⟩ => by show b.val = if (32 : Nat) = 1 then 0 else b.val; rw [if_neg (by decide)]
    | ⟨1, _⟩ => by show n.val = if (2048 : Nat) = 1 then 0 else n.val; rw [if_neg (by decide)]
    | ⟨2, _⟩ => by show o.val = if (64 : Nat) = 1 then 0 else o.val; rw [if_neg (by decide)])

/-- A [32, 1, 64, 32] array broadcast along its unit axis to 2048, read at (b, n, o, d): the array at (b, 0, o, d). -/
private theorem bcast_v_apply (v : FVec Ideal S32x1x64x32 .f32) (b : Fin 32) (n : Fin 2048) (o : Fin 64) (d : Fin 32) :
    broadcastInDim S32x2048x64x32 ![0, 1, 2, 3] bcast_S32x1x64x32_S32x2048x64x32_0_1_2_3 v (ix4 b n o d)
      = v (ix4 b (0 : Fin 1) o d) :=
  broadcastInDim_apply _ bcast_S32x1x64x32_S32x2048x64x32_0_1_2_3 v (ix4 b n o d) (ix4 b (0 : Fin 1) o d)
    (fun a => match a with
    | ⟨0, _⟩ => by show b.val = if (32 : Nat) = 1 then 0 else b.val; rw [if_neg (by decide)]
    | ⟨1, _⟩ => by show 0 = if (1 : Nat) = 1 then 0 else n.val; rw [if_pos rfl]
    | ⟨2, _⟩ => by show o.val = if (64 : Nat) = 1 then 0 else o.val; rw [if_neg (by decide)]
    | ⟨3, _⟩ => by show d.val = if (32 : Nat) = 1 then 0 else d.val; rw [if_neg (by decide)])

/-- A [32, 64, 32] array given a unit axis in position 1, read at (b, z, o, d): the array at (b, o, d). -/
private theorem bcast_keep_apply (w : FVec Ideal S32x64x32 .f32) (b : Fin 32) (z : Fin 1) (o : Fin 64) (d : Fin 32) :
    broadcastInDim S32x1x64x32 ![0, 2, 3] bcast_S32x64x32_S32x1x64x32_0_2_3 w (ix4 b z o d) = w (ix3 b o d) :=
  broadcastInDim_apply _ bcast_S32x64x32_S32x1x64x32_0_2_3 w (ix4 b z o d) (ix3 b o d)
    (fun a => match a with
    | ⟨0, _⟩ => by show b.val = if (32 : Nat) = 1 then 0 else b.val; rw [if_neg (by decide)]
    | ⟨1, _⟩ => by show o.val = if (64 : Nat) = 1 then 0 else o.val; rw [if_neg (by decide)]
    | ⟨2, _⟩ => by show d.val = if (32 : Nat) = 1 then 0 else d.val; rw [if_neg (by decide)])

/-- s[b, 0, o, d] = Σ_n C[b, n, o] · U[b, n, o, d]. -/
theorem rWsum_up (C : R3 32 2048 64) (U : R4 32 2048 64 32) :
    Comb.rWsum (F := Ideal) (up C) (up U) = up (wsum4 C U) := by
  funext j
  obtain ⟨b, z, o, d, rfl⟩ : ∃ (b : Fin 32) (z : Fin 1) (o : Fin 64) (d : Fin 32), j = ix4 b z o d :=
    ⟨j 0, j 1, j 2, j 3, eq_ix4 j⟩
  unfold Comb.rWsum
  refine (bcast_keep_apply _ b z o d).trans ?_
  refine (reduceAdd_d1_apply _ b o d).trans ?_
  -- each term is C[b, n, o] · U[b, n, o, d], the factors reals read as extended reals
  refine (Finset.sum_congr rfl fun n _ =>
    congrArg (· * up U (ix4 b n o d)) (bcast_c_apply (up C) b n o d)).trans ?_
  show _ = ((∑ n : Fin 2048, C (ix3 b n o) * U (ix4 b n o d) : ℝ) : EReal)
  rw [coe_sum]
  refine Finset.sum_congr rfl fun n _ => ?_
  exact (EReal.coe_mul _ _).symm

/-- a[b, n, o] = Σ_d U[b, n, o, d] · V[b, 0, o, d]. -/
theorem rAgree_up (U : R4 32 2048 64 32) (V : R4 32 1 64 32) :
    Comb.rAgree (F := Ideal) (up U) (up V) = up (agree3 U V) := by
  funext j
  obtain ⟨b, n, o, rfl⟩ : ∃ (b : Fin 32) (n : Fin 2048) (o : Fin 64), j = ix3 b n o :=
    ⟨j 0, j 1, j 2, eq_ix3 j⟩
  unfold Comb.rAgree
  refine (reduceAdd_d3_apply _ b n o).trans ?_
  -- each term is U[b, n, o, d] · V[b, 0, o, d], the factors reals read as extended reals
  refine (Finset.sum_congr rfl fun d _ =>
    congrArg (up U (ix4 b n o d) * ·) (bcast_v_apply (up V) b n o d)).trans ?_
  show _ = ((∑ d : Fin 32, U (ix4 b n o d) * V (ix4 b (0 : Fin 1) o d) : ℝ) : EReal)
  rw [coe_sum]
  refine Finset.sum_congr rfl fun d _ => ?_
  exact (EReal.coe_mul _ _).symm

end Cert.ReferenceIdeal.RRead

end
-- ==== Proof.RSquash.lean ====
/-
  The squash on real rows, in the reference: of the [32, 1, 64, 32] routing sums (three times) and of the
  [32, 2048, 16] input (once). The reference takes the length first (the root of the sum of squares) and squares it
  again; a sum of squares is nonnegative, so that square is the sum, and both factors of the divisor are positive.
-/
import proofs.«146784_j6313601925542_1_alg».proof.Proof.RComb
import proofs.«146784_j6313601925542_1_alg».proof.Proof.Spec
import proofs.«146784_j6313601925542_1_alg».proof.Proof.Consts
import proofs.«146784_j6313601925542_1_alg».proof.Proof.LibEReal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RRead

open Cert.ReferenceIdeal Cert.ReferenceIdeal.Gen Cert.ReferenceIdeal.ReadP Cert.Caps Cert.Consts
open Idealize.ShloMosaic Idealize.ShloMosaic.ValueIdx Idealize.ShloMosaic.ERealCoe

/-! ## Entrywise operations on real arrays -/

/-- The entrywise product of two real arrays is the array of the real products. -/
private theorem up_mulf {s : Shape} (A B : s.Idx → ℝ) :
    mulf (F := Ideal) (φ := .f32) (up A) (up B) = up (fun j => A j * B j) := by
  funext j
  show ((A j : ℝ) : EReal) * ((B j : ℝ) : EReal) = ((A j * B j : ℝ) : EReal)
  exact (EReal.coe_mul _ _).symm

/-- The entrywise sum of two real arrays is the array of the real sums. -/
private theorem up_addf {s : Shape} (A B : s.Idx → ℝ) :
    addf (F := Ideal) (φ := .f32) (up A) (up B) = up (fun j => A j + B j) := by
  funext j
  show ((A j : ℝ) : EReal) + ((B j : ℝ) : EReal) = ((A j + B j : ℝ) : EReal)
  exact (EReal.coe_add _ _).symm

/-- The entrywise root of a real array with no negative entry is the array of the real roots. -/
private theorem up_sqrt {s : Shape} (A : s.Idx → ℝ) (hA : ∀ j, 0 ≤ A j) :
    Host.sqrt (F := Ideal) (φ := .f32) (up A) = up (fun j => Real.sqrt (A j)) := by
  funext j
  show Ideal.sqrt ((A j : ℝ) : EReal) = ((Real.sqrt (A j) : ℝ) : EReal)
  exact sqrt_coe_of_nonneg (A j) (hA j)

/-- The entrywise quotient of a real array by a real array with no zero entry is the array of the real quotients. -/
private theorem up_divf {s : Shape} (A B : s.Idx → ℝ) (hB : ∀ j, B j ≠ 0) :
    Host.divf (F := Ideal) (φ := .f32) (up A) (up B) = up (fun j => A j / B j) := by
  funext j
  show Ideal.div ((A j : ℝ) : EReal) ((B j : ℝ) : EReal) = ((A j / B j : ℝ) : EReal)
  exact div_coe_coe (A j) (B j) (hB j)

/-! ## The squash of one entry -/

/-- Both factors of the squash's divisor are positive: a half plus a square, and a positive constant plus a root; so
    the divisor is not zero. -/
private theorem den_ne_zero (T : ℝ) : (1 / 2 + Real.sqrt T * Real.sqrt T) * (epsR + Real.sqrt T) ≠ 0 := by
  have h0 : 0 ≤ Real.sqrt T := Real.sqrt_nonneg T
  have h1 : 0 < 1 / 2 + Real.sqrt T * Real.sqrt T := by
    have := mul_self_nonneg (Real.sqrt T)
    linarith
  have h2 : 0 < epsR + Real.sqrt T := by
    have := epsR_pos
    linarith
  exact (mul_pos h1 h2).ne'

/-- The square of the root of a nonnegative number is the number: the reference's squash, which squares the length
    again, is the squash of the squared length. -/
private theorem squashVal_sqrt (T x : ℝ) (hT : 0 ≤ T) :
    Real.sqrt T * Real.sqrt T * x / ((1 / 2 + Real.sqrt T * Real.sqrt T) * (epsR + Real.sqrt T))
      = squashVal (1 / 2) epsR T (Real.sqrt T) x := by
  rw [Real.mul_self_sqrt hT]
  rfl

/-! ## The layout operations and the row sum on [32, 1, 64, 32] -/

/-- A constant that denotes the real `r`, spread over [32, 1, 64, 1], is the array whose every entry is `r`. -/
private theorem bc04_up (bits : BitVec 32) (r : ℝ) (h : Ideal.ofBits .f32 bits = (r : EReal)) :
    broadcastInDim S32x1x64x1 ![] bcast_S_S32x1x64x1 (constant (F := Ideal) S_ .f32 bits) = up (fun _ => r) := by
  funext i
  refine (broadcastInDim_apply _ bcast_S_S32x1x64x1 _ i (fun a => a.elim0) (fun a => a.elim0)).trans ?_
  exact h

/-- The sum over the last axis of a real [32, 1, 64, 32] array, started from zero: at (b, z, o) the real sum over k of
    the entries (b, z, o, k). -/
private theorem red43_up (A : S32x1x64x32.Idx → ℝ) :
    Host.reduceAdd (F := Ideal) (φ := .f32) (up A) (constant S_ .f32 0x00000000#32) reducesTo_S32x1x64x32_S32x1x64_d3 h_S_
      = up (fun j : S32x1x64.Idx => ∑ k : Fin 32, A (ix4 (j 0) (j 1) (j 2) k)) := by
  funext j
  simp only [Host.reduceAdd, Ideal.hostReduceAdd_def]
  rw [Ideal.hostReduceAdd_single reducesTo_S32x1x64x32_S32x1x64_d3 (by decide)]
  show Ideal.ofBits .f32 0x00000000#32 + _ = _
  rw [Ideal.ofBits_zero_f32, zero_add, up_apply, coe_sum]
  refine Finset.sum_congr rfl fun k _ => ?_
  exact congrArg (up A) (funext fun a => Fin.ext (by match a with | ⟨0, _⟩ => rfl | ⟨1, _⟩ => rfl | ⟨2, _⟩ => rfl | ⟨3, _⟩ => rfl))

/-- A real [32, 1, 64] array with a unit axis appended: the entry (b, z, o, u) is the entry (b, 0, o). -/
private theorem bc34_up (A : S32x1x64.Idx → ℝ) :
    broadcastInDim S32x1x64x1 ![0, 1, 2] bcast_S32x1x64_S32x1x64x1_0_1_2 (up A)
      = up (fun j : S32x1x64x1.Idx => A (ix3 (j 0) 0 (j 2))) := by
  funext i
  exact broadcastInDim_apply _ bcast_S32x1x64_S32x1x64x1_0_1_2 (up A) i (ix3 (i 0) 0 (i 2)) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)])

/-- A real [32, 1, 64, 1] column spread along the last axis: the entry (b, z, o, d) is the entry (b, 0, o, 0). -/
private theorem bc44_up (A : S32x1x64x1.Idx → ℝ) :
    broadcastInDim S32x1x64x32 ![0, 1, 2, 3] bcast_S32x1x64x1_S32x1x64x32_0_1_2_3 (up A)
      = up (fun j : S32x1x64x32.Idx => A (ix4 (j 0) 0 (j 2) 0)) := by
  funext i
  exact broadcastInDim_apply _ bcast_S32x1x64x1_S32x1x64x32_0_1_2_3 (up A) i (ix4 (i 0) 0 (i 2) 0) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)]
    | ⟨3, _⟩ => by show 0 = if (1 : Nat) = 1 then 0 else (i 3).val; rw [if_pos rfl])

/-- On a real [32, 1, 64, 32] array the reference's squash stage is the real squash of its rows (last axis). -/
theorem rSquash4_up (S : R4 32 1 64 32) : Comb.rSquash4 (F := Ideal) (up S) = up (squash4 (1 / 2) epsR S) := by
  unfold Comb.rSquash4
  dsimp only
  -- the squared length T(b, o) = Σ_k S(b, 0, o, k)², a sum of squares, and its root
  rw [up_mulf, red43_up, bc34_up, up_sqrt]
  · -- the numerator (√T · √T) · S, the divisor (1/2 + √T · √T) · (epsR + √T), and their quotient
    rw [up_mulf, bc44_up, up_mulf, bc04_up _ _ ofBits_half, up_addf, bc04_up _ _ ofBits_eps, up_addf, up_mulf, bc44_up,
      up_divf]
    · refine congrArg up (funext fun j => ?_)
      obtain ⟨b, z, o, d, rfl⟩ : ∃ (b : Fin 32) (z : Fin 1) (o : Fin 64) (d : Fin 32), j = ix4 b z o d :=
        ⟨j 0, j 1, j 2, j 3, eq_ix4 j⟩
      obtain rfl : z = 0 := Subsingleton.elim _ _
      exact squashVal_sqrt (sq2 (bat41 S b) o) (S (ix4 b 0 o d)) (sq2_nonneg _ _)
    · intro j
      exact den_ne_zero _
  · intro j
    exact Finset.sum_nonneg fun k _ => mul_self_nonneg _

/-! ## The layout operations and the row sum on [32, 2048, 16] -/

/-- A constant that denotes the real `r`, spread over [32, 2048, 1], is the array whose every entry is `r`. -/
private theorem bc03_up (bits : BitVec 32) (r : ℝ) (h : Ideal.ofBits .f32 bits = (r : EReal)) :
    broadcastInDim S32x2048x1 ![] bcast_S_S32x2048x1 (constant (F := Ideal) S_ .f32 bits) = up (fun _ => r) := by
  funext i
  refine (broadcastInDim_apply _ bcast_S_S32x2048x1 _ i (fun a => a.elim0) (fun a => a.elim0)).trans ?_
  exact h

/-- The sum over the last axis of a real [32, 2048, 16] array, started from zero: at (b, n) the real sum over k of the
    entries (b, n, k). -/
private theorem red32_up (A : S32x2048x16.Idx → ℝ) :
    Host.reduceAdd (F := Ideal) (φ := .f32) (up A) (constant S_ .f32 0x00000000#32) reducesTo_S32x2048x16_S32x2048_d2 h_S_
      = up (fun j : S32x2048.Idx => ∑ k : Fin 16, A (ix3 (j 0) (j 1) k)) := by
  funext j
  simp only [Host.reduceAdd, Ideal.hostReduceAdd_def]
  rw [Ideal.hostReduceAdd_single reducesTo_S32x2048x16_S32x2048_d2 (by decide)]
  show Ideal.ofBits .f32 0x00000000#32 + _ = _
  rw [Ideal.ofBits_zero_f32, zero_add, up_apply, coe_sum]
  refine Finset.sum_congr rfl fun k _ => ?_
  exact congrArg (up A) (funext fun a => Fin.ext (by match a with | ⟨0, _⟩ => rfl | ⟨1, _⟩ => rfl | ⟨2, _⟩ => rfl))

/-- A real [32, 2048] array with a unit axis appended: the entry (b, n, u) is the entry (b, n). -/
private theorem bc23_up (A : S32x2048.Idx → ℝ) :
    broadcastInDim S32x2048x1 ![0, 1] bcast_S32x2048_S32x2048x1_0_1 (up A)
      = up (fun j : S32x2048x1.Idx => A (ix2 (j 0) (j 1))) := by
  funext i
  exact broadcastInDim_apply _ bcast_S32x2048_S32x2048x1_0_1 (up A) i (ix2 (i 0) (i 1)) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)])

/-- A real [32, 2048, 1] column spread along the last axis: the entry (b, n, i) is the entry (b, n, 0). -/
private theorem bc33_up (A : S32x2048x1.Idx → ℝ) :
    broadcastInDim S32x2048x16 ![0, 1, 2] bcast_S32x2048x1_S32x2048x16_0_1_2 (up A)
      = up (fun j : S32x2048x16.Idx => A (ix3 (j 0) (j 1) 0)) := by
  funext i
  exact broadcastInDim_apply _ bcast_S32x2048x1_S32x2048x16_0_1_2 (up A) i (ix3 (i 0) (i 1) 0) (fun a => match a with
    | ⟨0, _⟩ => by show (i 0).val = if (32 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

/-- On a real input the reference's squashed input (its stage `val_main_v10`) is the real squash of every row. -/
theorem v10_up (X : R3 32 2048 16) : val_main_v10 (F := Ideal) (up X) = up (squash3 (1 / 2) epsR X) := by
  unfold val_main_v10 val_main_v9 val_main_v8 val_main_v7 val_main_v6 val_main_v5 val_main_v4 val_main_v3 val_main_v2
    val_main_v1 val_main_v0 val_main_call0_v2 val_main_call0_v1 val_main_call0_v0 val_main_cst val_main_cst_0
    val_main_call0_cst
  -- the squared length T(b, n) = Σ_k X(b, n, k)², a sum of squares, and its root
  rw [up_mulf, red32_up, bc23_up, up_sqrt]
  · -- the numerator (√T · √T) · X, the divisor (1/2 + √T · √T) · (epsR + √T), and their quotient
    rw [up_mulf, bc33_up, up_mulf, bc03_up _ _ ofBits_half, up_addf, bc03_up _ _ ofBits_eps, up_addf, up_mulf, bc33_up,
      up_divf]
    · refine congrArg up (funext fun j => ?_)
      obtain ⟨b, n, i, rfl⟩ : ∃ (b : Fin 32) (n : Fin 2048) (i : Fin 16), j = ix3 b n i := ⟨j 0, j 1, j 2, eq_ix3 j⟩
      exact squashVal_sqrt (sq2 (bat3 X b) n) (X (ix3 b n i)) (sq2_nonneg _ _)
    · intro j
      exact den_ne_zero _
  · intro j
    exact Finset.sum_nonneg fun k _ => mul_self_nonneg _

end Cert.ReferenceIdeal.RRead

end
-- ==== Proof.RPred.lean ====
/-
  The reference's remaining single operations on real operands: the weight without its unit axis, the predictions
  (one contraction over the input width 16), the zero logits, and the final cast that drops the kept unit axis.
-/
import proofs.«146784_j6313601925542_1_alg».proof.Proof.RComb
import proofs.«146784_j6313601925542_1_alg».proof.Proof.Spec
import proofs.«146784_j6313601925542_1_alg».proof.Proof.Consts
import proofs.«146784_j6313601925542_1_alg».proof.Proof.LibEReal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RRead

open Cert.ReferenceIdeal Cert.ReferenceIdeal.Gen Cert.ReferenceIdeal.ReadP Cert.Caps Cert.Consts
open Idealize.ShloMosaic Idealize.ShloMosaic.ValueIdx Idealize.ShloMosaic.ERealCoe

/-- The weight [1, 64, 32, 16] reshaped to [64, 32, 16]. -/
theorem v11_up (W4 : R4 1 64 32 16) : val_main_v11 (F := Ideal) (up W4) = up (w3 W4) := by
  funext j
  obtain ⟨o, d, i, rfl⟩ : ∃ (o : Fin 64) (d : Fin 32) (i : Fin 16), j = ix3 o d i := ⟨j 0, j 1, j 2, eq_ix3 j⟩
  rw [val_main_v11_apply]
  -- the flat position (o · 32 + d) · 16 + i of [64, 32, 16] is position (0, o, d, i) of [1, 64, 32, 16]
  have e : idx_main_v11 (ix3 o d i) = ix4 0 o d i := funext fun a => Fin.ext (by
    have h0 : o.val < 64 := o.isLt
    have h1 : d.val < 32 := d.isLt
    have h2 : i.val < 16 := i.isLt
    match a with
    | ⟨0, _⟩ => rfl
    | ⟨1, _⟩ => show ((o.val * 32 + d.val) * 16 + i.val) / 512 % 64 = o.val; omega
    | ⟨2, _⟩ => show ((o.val * 32 + d.val) * 16 + i.val) / 16 % 32 = d.val; omega
    | ⟨3, _⟩ => show ((o.val * 32 + d.val) * 16 + i.val) % 16 = i.val; omega)
  rw [e]
  rfl

/-- The contraction read at an index: the sum over the one contracted coordinate k (the last axis of both operands) of
    the left operand at (b, n, k) times the right operand at (o, d, k). -/
private theorem dot_apply (y0 : FVec Ideal S32x2048x16 .f32) (y1 : FVec Ideal S64x32x16 .f32) (i : S32x2048x64x32.Idx) :
    (Host.dotGeneral (F := Ideal) (φ₁ := .f32) (φ₂ := .f32) dot_S32x2048x16_S64x32x16_S32x2048x64x32_2_2_01_01_n_n none y0 y1 : FVec Ideal S32x2048x64x32 .f32) i
      = ∑ k : Fin 16, y0 (lidx_main_v12 i k) * y1 (ridx_main_v12 i k) := by
  simp only [Host.dotGeneral]
  rw [Ideal.dotGeneral_apply, ← Equiv.sum_comp (ValueIdx.contrEquiv1 dot_S32x2048x16_S64x32x16_S32x2048x64x32_2_2_01_01_n_n 16 rfl rfl).symm]
  refine Finset.sum_congr rfl fun k _ => ?_
  have hk := ValueIdx.contrEquiv1_symm_val dot_S32x2048x16_S64x32x16_S32x2048x64x32_2_2_01_01_n_n 16 rfl rfl k
  have el : dot_S32x2048x16_S64x32x16_S32x2048x64x32_2_2_01_01_n_n.lhsIdx i ((ValueIdx.contrEquiv1 dot_S32x2048x16_S64x32x16_S32x2048x64x32_2_2_01_01_n_n 16 rfl rfl).symm k) = lidx_main_v12 i k := funext fun a => Fin.ext (by
    match a with
    | ⟨0, _⟩ => exact lhs_main_v12_0 _ _
    | ⟨1, _⟩ => exact lhs_main_v12_1 _ _
    | ⟨2, _⟩ => exact (lhs_main_v12_2 _ _).trans hk)
  have er : dot_S32x2048x16_S64x32x16_S32x2048x64x32_2_2_01_01_n_n.rhsIdx i ((ValueIdx.contrEquiv1 dot_S32x2048x16_S64x32x16_S32x2048x64x32_2_2_01_01_n_n 16 rfl rfl).symm k) = ridx_main_v12 i k := funext fun a => Fin.ext (by
    match a with
    | ⟨0, _⟩ => exact rhs_main_v12_0 _ _
    | ⟨1, _⟩ => exact rhs_main_v12_1 _ _
    | ⟨2, _⟩ => exact (rhs_main_v12_2 _ _).trans hk)
  rw [el, er]

/-- The predictions: u[b, n, o, d] = Σ_i Xs[b, n, i] · W[o, d, i]. -/
theorem dot_up (Xs : R3 32 2048 16) (W : R3 64 32 16) :
    (Host.dotGeneral (F := Ideal) (φ₁ := .f32) (φ₂ := .f32) dot_S32x2048x16_S64x32x16_S32x2048x64x32_2_2_01_01_n_n none
        (up Xs : FVec Ideal S32x2048x16 .f32) (up W : FVec Ideal S64x32x16 .f32) : FVec Ideal S32x2048x64x32 .f32)
      = up (pred4 Xs W) := by
  funext j
  obtain ⟨b, n, o, d, rfl⟩ : ∃ (b : Fin 32) (n : Fin 2048) (o : Fin 64) (d : Fin 32), j = ix4 b n o d :=
    ⟨j 0, j 1, j 2, j 3, eq_ix4 j⟩
  rw [dot_apply]
  have el : ∀ k : Fin 16, lidx_main_v12 (ix4 b n o d) k = ix3 b n k := fun k => funext fun a => Fin.ext (by
    match a with
    | ⟨0, _⟩ => rfl
    | ⟨1, _⟩ => rfl
    | ⟨2, _⟩ => rfl)
  have er : ∀ k : Fin 16, ridx_main_v12 (ix4 b n o d) k = ix3 o d k := fun k => funext fun a => Fin.ext (by
    match a with
    | ⟨0, _⟩ => rfl
    | ⟨1, _⟩ => rfl
    | ⟨2, _⟩ => rfl)
  -- the sum over the input width of products of reals is the real sum of the real products
  show ∑ k : Fin 16, ((Xs (lidx_main_v12 (ix4 b n o d) k) : ℝ) : EReal) * ((W (ridx_main_v12 (ix4 b n o d) k) : ℝ) : EReal)
    = ((∑ k : Fin 16, Xs (ix3 b n k) * W (ix3 o d k) : ℝ) : EReal)
  rw [coe_sum]
  refine Finset.sum_congr rfl fun k _ => ?_
  rw [el, er, EReal.coe_mul]

/-- The zero logits. -/
theorem v13_up : val_main_v13 (F := Ideal) = up (zero3 : R3 32 2048 64) := by
  funext j
  rw [val_main_v13_apply, val_main_cst_1_apply]
  -- the zero pattern denotes the extended real 0, the coercion of the real 0
  show Ideal.ofBits .f32 0x00000000#32 = (((0 : ℝ) : ℝ) : EReal)
  rw [Ideal.ofBits_zero_f32, EReal.coe_zero]

/-- Adding real logits entry by entry. -/
theorem addf_up (L A : R3 32 2048 64) :
    (addf (up L : FVec Ideal S32x2048x64 .f32) (up A : FVec Ideal S32x2048x64 .f32) : FVec Ideal S32x2048x64 .f32) = up (add3 L A) := by
  funext j
  rw [addf_apply]
  show ((L j : ℝ) : EReal) + ((A j : ℝ) : EReal) = ((L j + A j : ℝ) : EReal)
  rw [EReal.coe_add]

/-- The final cast [32, 1, 64, 32] → [32, 64, 32] drops the unit axis. -/
theorem cast_out_up (S : R4 32 1 64 32) :
    (shapeCast S32x64x32 (up S : FVec Ideal S32x1x64x32 .f32) shapeCasts_S32x1x64x32_S32x64x32 : FVec Ideal S32x64x32 .f32)
      = up (drop41 S) := by
  funext j
  obtain ⟨b, o, d, rfl⟩ : ∃ (b : Fin 32) (o : Fin 64) (d : Fin 32), j = ix3 b o d := ⟨j 0, j 1, j 2, eq_ix3 j⟩
  -- the flat position (b · 64 + o) · 32 + d of [32, 64, 32] is position (b, 0, o, d) of [32, 1, 64, 32]
  have h0 : b.val < 32 := b.isLt
  have h1 : o.val < 64 := o.isLt
  have h2 : d.val < 32 := d.isLt
  refine (shapeCast_apply (up S) shapeCasts_S32x1x64x32_S32x64x32 (ix3 b o d) (ix4 b 0 o d) ?_).trans rfl
  rewrite [Shape.rowMajor_val_four, Shape.rowMajor_val_three]
  show ((b.val * 1 + 0) * 64 + o.val) * 32 + d.val = (b.val * 64 + o.val) * 32 + d.val
  omega

end Cert.ReferenceIdeal.RRead

end
-- ==== Proof.ROut.lean ====
/-
  The reference's result on real arguments: the stages composed. With the input and the weight real, the reference's
  last stage is `G` of them: for every batch entry the routing of that entry's input capsules.
-/
import proofs.«146784_j6313601925542_1_alg».proof.Proof.RComb
import proofs.«146784_j6313601925542_1_alg».proof.Proof.Spec
import proofs.«146784_j6313601925542_1_alg».proof.Proof.Consts
import proofs.«146784_j6313601925542_1_alg».proof.Proof.LibEReal
import proofs.«146784_j6313601925542_1_alg».proof.Proof.RSoftmax
import proofs.«146784_j6313601925542_1_alg».proof.Proof.RWsum
import proofs.«146784_j6313601925542_1_alg».proof.Proof.RSquash
import proofs.«146784_j6313601925542_1_alg».proof.Proof.RPred
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RRead

open Cert.ReferenceIdeal Cert.ReferenceIdeal.Gen Cert.ReferenceIdeal.ReadP Cert.Caps Cert.Consts
open Idealize.ShloMosaic Idealize.ShloMosaic.ValueIdx Idealize.ShloMosaic.ERealCoe

/-- The predictions on real arguments. -/
theorem v12_up (X : R3 32 2048 16) (W4 : R4 1 64 32 16) :
    val_main_v12 (F := Ideal) (up X) (up W4) = up (pred4 (squash3 (1 / 2) epsR X) (w3 W4)) := by
  unfold val_main_v12
  rw [v10_up, v11_up]
  exact dot_up _ _

/-- One routing pass on real operands. -/
theorem rStep_up (U : R4 32 2048 64 32) (L : R3 32 2048 64) :
    Comb.rStep (F := Ideal) (up U) (up L) = up (rStep3 (1 / 2) epsR U L) := by
  unfold Comb.rStep rStep3
  rw [rSoftmax_up, rWsum_up, rSquash4_up]

/-- The next logits on real operands. -/
theorem rNext_up (U : R4 32 2048 64 32) (L : R3 32 2048 64) :
    Comb.rNext (F := Ideal) (up U) (up L) = up (rNext3 (1 / 2) epsR U L) := by
  unfold Comb.rNext rNext3
  rw [rStep_up, rAgree_up, addf_up]

/-- THE REFERENCE'S RESULT on real arguments is `G` of them. -/
theorem ref_up (X : R3 32 2048 16) (W4 : R4 1 64 32 16) :
    val_main_v103 (F := Ideal) (up X) (up W4) = up (G (1 / 2) epsR X W4) := by
  rw [Comb.ref_eq, v12_up, v13_up, rNext_up, rNext_up, rStep_up, cast_out_up, drop41_rOut3]

end Cert.ReferenceIdeal.RRead

end
-- ==== Proof.Finite.lean ====
/-
  From the precondition to real arguments. The precondition says that every entry of both arguments is smaller in
  absolute value than +∞; an extended real with that property is a real number, so each argument array is a real array
  read as extended reals.
-/
import proofs.«146784_j6313601925542_1_alg».proof.Defs
import proofs.«146784_j6313601925542_1_alg».proof.Proof.Gen.KernelIdeal
import proofs.«146784_j6313601925542_1_alg».proof.Proof.Gen.Pre_finite_inputs
import proofs.«146784_j6313601925542_1_alg».proof.Proof.Spec
import Idealize.ShloMosaic.Lib.ReduceAll
import Idealize.ShloMosaic.Lib.ValueIdx
import Idealize.ShloMosaic.Lib.IdealHost

noncomputable section

namespace Cert.Finite

open Cert.Caps Idealize.ShloMosaic Idealize.ShloMosaic.ValueIdx Idealize.SL.Sem

/-- The single-precision pattern `0x7F800000` (exponent all ones, fraction zero, sign clear) denotes `+∞`. -/
private theorem ofBits_pos_inf : Ideal.ofBits .f32 0x7F800000#32 = (⊤ : EReal) := by
  simp [Ideal.ofBits, Ideal.ieee]

/-- An extended real whose absolute value `max x (-x)` is below `+∞` is a real number: at `⊥` the negation is `⊤`,
at `⊤` the number itself is, and either makes the maximum `⊤`. -/
private theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
private instance : Subsingleton Cert.Pre_finite_inputs.S_.Idx := ⟨fun a b => funext fun d => d.elim0⟩

/-- An entry at which the comparison of the absolute value with the broadcast `+∞` pattern came out 1 is a real
number. -/
private theorem real_of_cmp {S : Shape} (x : FVec Ideal S .f32)
    (hb : Cert.Pre_finite_inputs.S_.BroadcastsInDim S (![] : Fin 0 → Fin S.rank)) (i : S.Idx)
    (h : cmpf .olt (Host.absf x) (broadcastInDim S ![] hb (constant (F := Ideal) Cert.Pre_finite_inputs.S_ .f32 0x7F800000#32)) i = 1#1) :
    ∃ r : ℝ, x i = (r : EReal) := by
  rw [cmpf_apply, broadcastInDim_scalar_apply, constant_apply, ofBits_pos_inf] at h
  refine real_of_abs_lt_top (x i) ?_
  have h' : Ideal.cmp .olt (max (x i) (-(x i))) ⊤ = 1#1 := h
  simp only [Ideal.cmp] at h'
  by_contra hn
  simp [hn] at h'

/-- Two arrays on which the printed precondition is all ones are real arrays. -/
theorem real_of_fn (x0 : FVec Ideal Cert.Pre_finite_inputs.S32x2048x16 .f32) (x1 : FVec Ideal Cert.Pre_finite_inputs.S1x64x32x16 .f32)
    (h : Cert.Pre_finite_inputs.fn (F := Ideal) x0 x1 = fun _ => 1#1) :
    (∃ X : R3 32 2048 16, x0 = up X) ∧ (∃ W4 : R4 1 64 32 16, x1 = up W4) := by
  have h0 := congrFun h ValueIdx.ix0
  dsimp only [Cert.Pre_finite_inputs.fn] at h0
  obtain ⟨ha, hb⟩ := IntOp.andi_eq_one.1 h0
  have r0 : ∀ i, ∃ r : ℝ, x0 i = (r : EReal) := fun i =>
    real_of_cmp x0 _ i (Host.reduce_andi_all _ _ _ _ _ ha i)
  have r1 : ∀ i, ∃ r : ℝ, x1 i = (r : EReal) := fun i =>
    real_of_cmp x1 _ i (Host.reduce_andi_all _ _ _ _ _ hb i)
  choose X hX using r0
  choose W4 hW using r1
  exact ⟨⟨X, funext hX⟩, ⟨W4, funext hW⟩⟩

/-- Under the precondition the kernel's two argument arrays are real arrays, on every device. -/
theorem reals_of_pre (m : (ℓ : Loc Cert.KernelIdeal.nD Cert.KernelIdeal.τ Cert.KernelIdeal.sig) → Buf (Elt Ideal) ℓ)
    (h : Cert.Pre_KernelIdeal m) :
    ∃ (X : Dev Cert.KernelIdeal.nD → R3 32 2048 16) (W4 : Dev Cert.KernelIdeal.nD → R4 1 64 32 16), ∀ c : Dev Cert.KernelIdeal.nD,
      m ((c.tc : Thread Cert.KernelIdeal.nD Cert.KernelIdeal.τ).loc Cert.KernelIdeal.main_arg0) = up (X c)
      ∧ m ((c.tc : Thread Cert.KernelIdeal.nD Cert.KernelIdeal.τ).loc Cert.KernelIdeal.main_arg1) = up (W4 c) := by
  have hh := fun c => real_of_fn _ _ (h c)
  choose X hX using fun c => (hh c).1
  choose W4 hW using fun c => (hh c).2
  exact ⟨X, W4, fun c => ⟨hX c, hW c⟩⟩

end Cert.Finite

end
-- ==== Proof.lean ====
/-
  The certificate of a capsule-routing kernel against its reference, at the exact values.

  Both programs take 32 batch entries of 2048 input capsules of width 16 and a shared weight [64, 32, 16], squash the
  input capsules, and route them in three passes to 64 output capsules of width 32 (Proof/Spec.lean states the
  computation over the reals). The reference forms the predictions u[n, o, d] = Σ_i xs[n, i] · W[o, d, i] once and sums
  them against the coupling coefficients (over n) and against the output capsules (over d); the kernel never forms
  them: it contracts the coefficients with the inputs over n first and with the weight afterwards, and on the way back
  the output capsules with the transposed weight over d first. Over the reals the two orders are one double sum, and
  the reference's "length squared again" is the sum of squares it took the root of. Over the extended reals those two
  laws need every quantity finite, so the proof first shows that, from finite arguments, every stage of both programs
  is a real array read as extended reals (the divisors of the squash are positive, the row maximum a softmax subtracts
  is a real number and does not change the softmax), and then compares the real arrays.

  Modules: Spec (the real computation and the two laws), LibEReal, LibKeepdims and Consts (extended reals that are
  reals; column shapes; the literals), KComb and RComb (each program's stages as written), KSoftmax, KProj, KSquash,
  KAgree, KOut (the kernel's stages on real operands, composed), KValue (the kernel's result array from its 32 blocks),
  RSoftmax, RWsum, RSquash, RPred, ROut (the reference's stages on real operands, composed), RefRead and RefRun (the
  reference's run, stage by stage), Finite (the precondition makes the arguments real).
-/
import proofs.«146784_j6313601925542_1_alg».proof.Defs
import proofs.«146784_j6313601925542_1_alg».proof.Proof.Gen.Kernel
import proofs.«146784_j6313601925542_1_alg».proof.Proof.Gen.Kernel.Skeleton
import proofs.«146784_j6313601925542_1_alg».proof.Proof.Gen.Kernel.Launch
import proofs.«146784_j6313601925542_1_alg».proof.Proof.Gen.Kernel.Points
import proofs.«146784_j6313601925542_1_alg».proof.Proof.Gen.Kernel.Frame
import proofs.«146784_j6313601925542_1_alg».proof.Proof.Gen.KernelIdeal
import proofs.«146784_j6313601925542_1_alg».proof.Proof.Gen.KernelIdeal.Skeleton
import proofs.«146784_j6313601925542_1_alg».proof.Proof.Gen.KernelIdeal.Launch
import proofs.«146784_j6313601925542_1_alg».proof.Proof.Gen.KernelIdeal.Points
import proofs.«146784_j6313601925542_1_alg».proof.Proof.Gen.KernelIdeal.Frame
import proofs.«146784_j6313601925542_1_alg».proof.Proof.Gen.ReferenceIdeal
import proofs.«146784_j6313601925542_1_alg».proof.Proof.Gen.Pre_finite_inputs
import proofs.«146784_j6313601925542_1_alg».proof.Proof.Gen.KernelIdeal.Value
import proofs.«146784_j6313601925542_1_alg».proof.Proof.RefRun
import proofs.«146784_j6313601925542_1_alg».proof.Proof.KValue
import proofs.«146784_j6313601925542_1_alg».proof.Proof.ROut
import proofs.«146784_j6313601925542_1_alg».proof.Proof.Finite
import Idealize.ShloMosaic.Adequacy
import Idealize.ShloMosaic.Init

noncomputable section

namespace Cert.Proof

open Idealize.ShloMosaic Idealize.SL.Sem Cert.Caps Cert.Consts

/-- The word-level kernel runs and leaves its arguments as they were. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From finite arguments both programs end with the result array at `G` of the arguments read as real arrays:
    for every batch entry, the routing of that entry's input capsules. -/
theorem algebraic : Cert.algebraic_KernelIdeal_ReferenceIdeal := by
  intro m ρ m' ρ' hpre hagree
  obtain ⟨X, W4, hXW⟩ := Cert.Finite.reals_of_pre m hpre
  refine ⟨fun c => up (G (1 / 2) epsR (X c) (W4 c)),
    Cert.KernelIdeal.KValue.run_value m ρ X W4 (fun c => (hXW c).1) (fun c => (hXW c).2), ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2, (hXW c).1, (hXW c).2]
  exact Cert.ReferenceIdeal.RRead.ref_up _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
